-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S640000x128 : Shape := ⟨2, ![640000, 128]⟩
abbrev S640000x64 : Shape := ⟨2, ![640000, 64]⟩
abbrev S640000 : Shape := ⟨1, ![640000]⟩
abbrev S256x128 : Shape := ⟨2, ![256, 128]⟩
abbrev S128 : Shape := ⟨1, ![128]⟩
abbrev S128x128 : Shape := ⟨2, ![128, 128]⟩
abbrev S64x128 : Shape := ⟨2, ![64, 128]⟩
abbrev S256x256 : Shape := ⟨2, ![256, 256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S640000x64 : S_.BroadcastsInDim S640000x64 (![] : Fin 0 → Fin S640000x64.rank)
  reducesTo_S640000x64_S_d0_1 : S640000x64.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S256x256 : S_.BroadcastsInDim S256x256 (![] : Fin 0 → Fin S256x256.rank)
  reducesTo_S256x256_S_d0_1 : S256x256.ReducesTo [0, 1] S_
  bcast_S_S640000 : S_.BroadcastsInDim S640000 (![] : Fin 0 → Fin S640000.rank)
  reducesTo_S640000_S_d0 : S640000.ReducesTo [0] S_

variable [Facts]

def fn_part3 {F : FTy → Type} [FloatOps F] (main_arg3 : IVec S640000 32) (main_v48 : IVec S_ 1) (main_v50 : IVec S640000 1) : IVec S_ 1 :=
  let main_c_19 : IVec S_ 32 := constantI S_ 32 20000#32
  let main_v51 : IVec S640000 32 := broadcastInDim S640000 ![] bcast_S_S640000 main_c_19
  let main_v52 : IVec S640000 1 := cmpi .slt main_arg3 main_v51
  let main_v53 : IVec S640000 1 := andi main_v50 main_v52
  let main_c_20 : IVec S_ 1 := constantI S_ 1 1#1
  let main_v54 : IVec S_ 1 := (fun x v => Host.reduce IntOp.andi x v reducesTo_S640000_S_d0 h_S_) main_v53 main_c_20
  let main_v55 : IVec S_ 1 := andi main_v48 main_v54
  main_v55

def fn_part2 {F : FTy → Type} [FloatOps F] (main_arg3 : IVec S640000 32) (main_arg9 : FVec F S64x128 .f32) (main_arg10 : FVec F S128 .f32) (main_arg11 : FVec F S256x256 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_c_18 : IVec S_ 32 := constantI S_ 32 4294947296#32
  let main_v49 : IVec S640000 32 := broadcastInDim S640000 ![] bcast_S_S640000 main_c_18
  let main_v50 : IVec S640000 1 := cmpi .sge main_arg3 main_v49
  fn_part3 (F := F) main_arg3 main_v48 main_v50

def fn_part1 {F : FTy → Type} [FloatOps F] (main_arg3 : IVec S640000 32) (main_arg6 : FVec F S128 .f32) (main_arg7 : FVec F S128x128 .f32) (main_arg8 : FVec F S128 .f32) (main_arg9 : FVec F S64x128 .f32) (main_arg10 : FVec F S128 .f32) (main_arg11 : FVec F S256x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg9 main_arg10 main_arg11 main_v33

def fn {F : FTy → Type} [FloatOps F] (main_arg0 : FVec F S20000x256 .f32) (main_arg1 : FVec F S640000x128 .f32) (main_arg2 : FVec F S640000x64 .f32) (main_arg3 : IVec S640000 32) (main_arg4 : IVec S640000 32) (main_arg5 : FVec F S256x128 .f32) (main_arg6 : FVec F S128 .f32) (main_arg7 : FVec F S128x128 .f32) (main_arg8 : FVec F S128 .f32) (main_arg9 : FVec F S64x128 .f32) (main_arg10 : FVec F S128 .f32) (main_arg11 : FVec F S256x256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S640000x64 .f32 := Host.absf main_arg2
  let main_cst_2 : FVec F S_ .f32 := constant S_ .f32 0x7F800000#32
  let main_v10 : FVec F S640000x64 .f32 := broadcastInDim S640000x64 ![] bcast_S_S640000x64 main_cst_2
  let main_v11 : IVec S640000x64 1 := cmpf .olt main_v9 main_v10
  let main_c_3 : IVec S_ 1 := constantI S_ 1 1#1
  let main_v12 : IVec S_ 1 := (fun x v => Host.reduce IntOp.andi x v reducesTo_S640000x64_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg3 main_arg6 main_arg7 main_arg8 main_arg9 main_arg10 main_arg11 main_v13 main_v16
-- ==== Kernel.lean ====
abbrev S20000x256 : Shape := ⟨2, ![20000, 256]⟩
abbrev S640000x128 : Shape := ⟨2, ![640000, 128]⟩
abbrev S640000x64 : Shape := ⟨2, ![640000, 64]⟩
abbrev S640000 : Shape := ⟨1, ![640000]⟩
abbrev S256x128 : Shape := ⟨2, ![256, 128]⟩
abbrev S128 : Shape := ⟨1, ![128]⟩
abbrev S128x128 : Shape := ⟨2, ![128, 128]⟩
abbrev S64x128 : Shape := ⟨2, ![64, 128]⟩
abbrev S256x256 : Shape := ⟨2, ![256, 256]⟩
abbrev S1x128 : Shape := ⟨2, ![1, 128]⟩
abbrev S20000x128 : Shape := ⟨2, ![20000, 128]⟩
abbrev S2000x256 : Shape := ⟨2, ![2000, 256]⟩
abbrev S2000x128 : Shape := ⟨2, ![2000, 128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x256 : Shape := ⟨2, ![640000, 256]⟩
abbrev S8000x128 : Shape := ⟨2, ![8000, 128]⟩
abbrev S8000x64 : Shape := ⟨2, ![8000, 64]⟩
abbrev S8000x256 : Shape := ⟨2, ![8000, 256]⟩
abbrev S2000 : Shape := ⟨1, ![2000]⟩
abbrev S2000x1 : Shape := ⟨2, ![2000, 1]⟩

abbrev nBuf : Space → Nat
  | .hbm => 45
  | .vmem => 23
  | .smem => 0
  | _ => 0

abbrev bufTy : (tb : Table) → Fin (tcTables nBuf tb) → BufTy
  | .hbm, ⟨0, _⟩ => ⟨S20000x256, .f32⟩
  | .hbm, ⟨1, _⟩ => ⟨S640000x128, .f32⟩
  | .hbm, ⟨2, _⟩ => ⟨S640000x64, .f32⟩
  | .hbm, ⟨3, _⟩ => ⟨S640000, .i32⟩
  | .hbm, ⟨4, _⟩ => ⟨S640000, .i32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S64x128, .f32⟩
  | .hbm, ⟨10, _⟩ => ⟨S128, .f32⟩
  | .hbm, ⟨11, _⟩ => ⟨S256x256, .f32⟩
  | .hbm, ⟨12, _⟩ => ⟨S1x128, .f32⟩
  | .hbm, ⟨13, _⟩ => ⟨S20000x128, .f32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S1, .i32⟩
  | .hbm, ⟨23, _⟩ => ⟨S_, .i32⟩
  | .hbm, ⟨24, _⟩ => ⟨S640000x1, .i32⟩
  | .hbm, ⟨25, _⟩ => ⟨S640000x1, .i1⟩
  | .hbm, ⟨26, _⟩ => ⟨S1x1, .i32⟩
  | .hbm, ⟨27, _⟩ => ⟨S640000x1, .i32⟩
  | .hbm, ⟨28, _⟩ => ⟨S640000x1, .i1⟩
  | .hbm, ⟨29, _⟩ => ⟨S640000x1, .i1⟩
  | .hbm, ⟨30, _⟩ => ⟨S_, .i1⟩
  | .hbm, ⟨31, _⟩ => ⟨S640000, .i1⟩
  | .hbm, ⟨32, _⟩ => ⟨S640000x128, .f32⟩
  | .hbm, ⟨33, _⟩ => ⟨S640000x128, .i1⟩
  | .hbm, ⟨34, _⟩ => ⟨S_, .f32⟩
  | .hbm, ⟨35, _⟩ => ⟨S640000x128, .f32⟩
  | .hbm, ⟨36, _⟩ => ⟨S640000x128, .f32⟩
  | .hbm, ⟨37, _⟩ => ⟨S1x128, .f32⟩
  | .hbm, ⟨38, _⟩ => ⟨S1x128, .f32⟩
  | .hbm, ⟨39, _⟩ => ⟨S640000x256, .f32⟩
  | .hbm, ⟨40, _⟩ => ⟨S_, .f32⟩
  | .hbm, ⟨41, _⟩ => ⟨S20000x256, .f32⟩
  | .hbm, ⟨42, _⟩ => ⟨S640000x1, .i32⟩
  | .hbm, ⟨43, _⟩ => ⟨S20000x256, .f32⟩
  | .hbm, ⟨44, _⟩ => ⟨S20000x256, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S8000x128, .f32⟩
  | .local _ .vmem, ⟨7, _⟩ => ⟨S8000x128, .f32⟩
  | .local _ .vmem, ⟨8, _⟩ => ⟨S8000x128, .f32⟩
  | .local _ .vmem, ⟨9, _⟩ => ⟨S8000x128, .f32⟩
  | .local _ .vmem, ⟨10, _⟩ => ⟨S8000x64, .f32⟩
  | .local _ .vmem, ⟨11, _⟩ => ⟨S8000x64, .f32⟩
  | .local _ .vmem, ⟨12, _⟩ => ⟨S128x128, .f32⟩
  | .local _ .vmem, ⟨13, _⟩ => ⟨S1x128, .f32⟩
  | .local _ .vmem, ⟨14, _⟩ => ⟨S64x128, .f32⟩
  | .local _ .vmem, ⟨15, _⟩ => ⟨S1x128, .f32⟩
  | .local _ .vmem, ⟨16, _⟩ => ⟨S256x256, .f32⟩
  | .local _ .vmem, ⟨17, _⟩ => ⟨S8000x256, .f32⟩
  | .local _ .vmem, ⟨18, _⟩ => ⟨S8000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_cst : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem1_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S8000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x64_S8000x64_0_0 : ∀ a, (![0, 0] : Fin 2 → Nat) a + S8000x64.size a ≤ S8000x64.size a
  h_S8000x64 : 0 < S8000x64.numel
  inb_S128x128_S128x128_0_0 : ∀ a, (![0, 0] : Fin 2 → Nat) a + S128x128.size a ≤ S128x128.size a
  h_S128x128 : 0 < S128x128.numel
  inb_S64x128_S64x128_0_0 : ∀ a, (![0, 0] : Fin 2 → Nat) a + S64x128.size a ≤ S64x128.size a
  h_S64x128 : 0 < S64x128.numel
  inb_S256x256_S256x256_0_0 : ∀ a, (![0, 0] : Fin 2 → Nat) a + S256x256.size a ≤ S256x256.size a
  h_S256x256 : 0 < S256x256.numel
  broadcasts_S1x128_S8000x128 : S1x128.Broadcasts S8000x128
  concatenates_S8000x128_S8000x128_S8000x256_d1 : Shape.Concatenates [S8000x128, S8000x128] S8000x256 1
  inb_S8000x256_S8000x256_0_0 : ∀ a, (![0, 0] : Fin 2 → Nat) a + S8000x256.size a ≤ S8000x256.size a
  h_S8000x256 : 0 < S8000x256.numel
  bcast_S_S20000x256 : S_.BroadcastsInDim S20000x256 (![] : Fin 0 → Fin S20000x256.rank)
  shapeCasts_S2000x256_S2000x256 : S2000x256.ShapeCasts S2000x256
  reduces_S2000x256_S2000 : S2000x256.Reduces [1] S2000
  shapeCasts_S2000_S2000x1 : S2000.ShapeCasts S2000x1
  broadcasts_S2000x1_S2000x256 : S2000x1.Broadcasts S2000x256
  dot_S2000x256_S256x128_S2000x128_1_0_0_1_n_n_wf : DotDims.WF S2000x256 S256x128 S2000x128 [1] [0] [0] [1] [] []
  gather_S20000x128_S640000x1_S640000x128_1_0_n_n_0_1_1128_wf : GatherDims.WF S20000x128 S640000x1 S640000x128 [1] [0] [] [0] [] 1 ![1, 128]
  dot_S8000x64_S64x128_S8000x128_1_0_0_1_n_n_wf : DotDims.WF S8000x64 S64x128 S8000x128 [1] [0] [0] [1] [] []
  dot_S8000x128_S128x128_S8000x128_1_0_0_1_n_n_wf : DotDims.WF S8000x128 S128x128 S8000x128 [1] [0] [0] [1] [] []
  dot_S8000x256_S256x256_S8000x256_1_0_0_1_n_n_wf : DotDims.WF S8000x256 S256x256 S8000x256 [1] [0] [0] [1] [] []
  scatter_S20000x256_S640000x1_S640000x256_1_0_0_1_wf : ScatterDims.WF S20000x256 S640000x1 S640000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S20000x128.size a
  hwx0_3 : ∀ i : grid0.Coords, EltTy.bits .f32 = 32 ∨ (Rect.block (s := S20000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S640000x128.size a
  hwx1_0 : ∀ i : grid1.Coords, EltTy.bits .f32 = 32 ∨ (Rect.block (s := S640000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S640000x128.size a
  hwx1_1 : ∀ i : grid1.Coords, EltTy.bits .f32 = 32 ∨ (Rect.block (s := S640000x128) S8000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S640000x64.size a
  hwx1_2 : ∀ i : grid1.Coords, EltTy.bits .f32 = 32 ∨ (Rect.block (s := S640000x64) S8000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8000x256.size a ≤ S640000x256.size a
  hwx1_8 : ∀ i : grid1.Coords, EltTy.bits .f32 = 32 ∨ (Rect.block (s := S640000x256) S8000x256.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S20000x256.size a
  hwx2_1 : ∀ i : grid2.Coords, EltTy.bits .f32 = 32 ∨ (Rect.block (s := S20000x256) S2000x256.size (cc2_transform_1 i) (hinb2_1 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x256_S256x256_S8000x256_1_0_0_1_n_n : DotDims S8000x256 S256x256 S8000x256 where
  lhsContracting := [1]
  rhsContracting := [0]
  lhsNonContracting := [0]
  rhsNonContracting := [1]
  lhsBatch := []
  rhsBatch := []
  wf := dot_S8000x256_S256x256_S8000x256_1_0_0_1_n_n_wf
def scatter_S20000x256_S640000x1_S640000x256_1_0_0_1 : ScatterDims S20000x256 S640000x1 S640000x256 where
  updateWindowDims := [1]
  insertedWindowDims := [0]
  scatterDimsToOperandDims := [0]
  indexVectorDim := 1
  wf := scatter_S20000x256_S640000x1_S640000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v5) S8000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v8) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S2000x256.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S20000x256 : Shape := ⟨2, ![20000, 256]⟩
abbrev S640000x128 : Shape := ⟨2, ![640000, 128]⟩
abbrev S640000x64 : Shape := ⟨2, ![640000, 64]⟩
abbrev S640000 : Shape := ⟨1, ![640000]⟩
abbrev S256x128 : Shape := ⟨2, ![256, 128]⟩
abbrev S128 : Shape := ⟨1, ![128]⟩
abbrev S128x128 : Shape := ⟨2, ![128, 128]⟩
abbrev S64x128 : Shape := ⟨2, ![64, 128]⟩
abbrev S256x256 : Shape := ⟨2, ![256, 256]⟩
abbrev S20000x128 : Shape := ⟨2, ![20000, 128]⟩
abbrev S1x128 : Shape := ⟨2, ![1, 128]⟩
abbrev S_ : Shape := ⟨0, ![]⟩
abbrev S640000x1 : Shape := ⟨2, ![640000, 1]⟩
abbrev S640000x256 : Shape := ⟨2, ![640000, 256]⟩
abbrev S20000 : Shape := ⟨1, ![20000]⟩
abbrev S20000x1 : Shape := ⟨2, ![20000, 1]⟩

abbrev nBuf : Space → Nat
  | .hbm => 48
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S640000x128, .f32⟩
  | .hbm, ⟨2, _⟩ => ⟨S640000x64, .f32⟩
  | .hbm, ⟨3, _⟩ => ⟨S640000, .i32⟩
  | .hbm, ⟨4, _⟩ => ⟨S640000, .i32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S64x128, .f32⟩
  | .hbm, ⟨10, _⟩ => ⟨S128, .f32⟩
  | .hbm, ⟨11, _⟩ => ⟨S256x256, .f32⟩
  | .hbm, ⟨12, _⟩ => ⟨S20000x128, .f32⟩
  | .hbm, ⟨13, _⟩ => ⟨S1x128, .f32⟩
  | .hbm, ⟨14, _⟩ => ⟨S20000x128, .f32⟩
  | .hbm, ⟨15, _⟩ => ⟨S20000x128, .f32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x128, .f32⟩
  | .hbm, ⟨25, _⟩ => ⟨S640000x128, .f32⟩
  | .hbm, ⟨26, _⟩ => ⟨S1x128, .f32⟩
  | .hbm, ⟨27, _⟩ => ⟨S640000x128, .f32⟩
  | .hbm, ⟨28, _⟩ => ⟨S640000x128, .f32⟩
  | .hbm, ⟨29, _⟩ => ⟨S640000x128, .f32⟩
  | .hbm, ⟨30, _⟩ => ⟨S640000x128, .f32⟩
  | .hbm, ⟨31, _⟩ => ⟨S1x128, .f32⟩
  | .hbm, ⟨32, _⟩ => ⟨S640000x128, .f32⟩
  | .hbm, ⟨33, _⟩ => ⟨S640000x128, .f32⟩
  | .hbm, ⟨34, _⟩ => ⟨S640000x256, .f32⟩
  | .hbm, ⟨35, _⟩ => ⟨S640000x256, .f32⟩
  | .hbm, ⟨36, _⟩ => ⟨S640000x256, .f32⟩
  | .hbm, ⟨37, _⟩ => ⟨S_, .f32⟩
  | .hbm, ⟨38, _⟩ => ⟨S20000x256, .f32⟩
  | .hbm, ⟨39, _⟩ => ⟨S640000x1, .i32⟩
  | .hbm, ⟨40, _⟩ => ⟨S20000x256, .f32⟩
  | .hbm, ⟨41, _⟩ => ⟨S20000x256, .f32⟩
  | .hbm, ⟨42, _⟩ => ⟨S_, .f32⟩
  | .hbm, ⟨43, _⟩ => ⟨S20000, .f32⟩
  | .hbm, ⟨44, _⟩ => ⟨S20000x1, .f32⟩
  | .hbm, ⟨45, _⟩ => ⟨S20000x1, .f32⟩
  | .hbm, ⟨46, _⟩ => ⟨S20000x256, .f32⟩
  | .hbm, ⟨47, _⟩ => ⟨S20000x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_v0 : Ref sig .tc := ⟨.hbm, 41, rfl⟩
abbrev main_call0_cst : Ref sig .tc := ⟨.hbm, 42, rfl⟩
abbrev main_call0_v1 : Ref sig .tc := ⟨.hbm, 43, rfl⟩
abbrev main_call0_v2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S1x128_S640000x128_0_1 : S1x128.BroadcastsInDim S640000x128 (![0, 1] : Fin 2 → Fin S640000x128.rank)
  concatenates_S640000x128_S640000x128_S640000x256_d1 : Shape.Concatenates [S640000x128, S640000x128] S640000x256 1
  bcast_S_S20000x256 : S_.BroadcastsInDim S20000x256 (![] : Fin 0 → Fin S20000x256.rank)
  reducesTo_S20000x256_S20000_d1 : S20000x256.ReducesTo [1] S20000
  h_S_ : 0 < S_.numel
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  dot_S20000x256_S256x128_S20000x128_1_0_0_1_n_n_wf : DotDims.WF S20000x256 S256x128 S20000x128 [1] [0] [0] [1] [] []
  gather_S20000x128_S640000x1_S640000x128_1_0_n_n_0_1_1128_wf : GatherDims.WF S20000x128 S640000x1 S640000x128 [1] [0] [] [0] [] 1 ![1, 128]
  dot_S640000x64_S64x128_S640000x128_1_0_0_1_n_n_wf : DotDims.WF S640000x64 S64x128 S640000x128 [1] [0] [0] [1] [] []
  dot_S640000x128_S128x128_S640000x128_1_0_0_1_n_n_wf : DotDims.WF S640000x128 S128x128 S640000x128 [1] [0] [0] [1] [] []
  dot_S640000x256_S256x256_S640000x256_1_0_0_1_n_n_wf : DotDims.WF S640000x256 S256x256 S640000x256 [1] [0] [0] [1] [] []
  scatter_S20000x256_S640000x1_S640000x256_1_0_0_1_wf : ScatterDims.WF S20000x256 S640000x1 S640000x256 [1] [0] [0] 1

variable [Facts₀]

def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x64_S64x128_S640000x128_1_0_0_1_n_n : DotDims S640000x64 S64x128 S640000x128 where
  lhsContracting := [1]
  rhsContracting := [0]
  lhsNonContracting := [0]
  rhsNonContracting := [1]
  lhsBatch := []
  rhsBatch := []
  wf := dot_S640000x64_S64x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x256_S256x256_S640000x256_1_0_0_1_n_n : DotDims S640000x256 S256x256 S640000x256 where
  lhsContracting := [1]
  rhsContracting := [0]
  lhsNonContracting := [0]
  rhsNonContracting := [1]
  lhsBatch := []
  rhsBatch := []
  wf := dot_S640000x256_S256x256_S640000x256_1_0_0_1_n_n_wf
def scatter_S20000x256_S640000x1_S640000x256_1_0_0_1 : ScatterDims S20000x256 S640000x1 S640000x256 where
  updateWindowDims := [1]
  insertedWindowDims := [0]
  scatterDimsToOperandDims := [0]
  indexVectorDim := 1
  wf := scatter_S20000x256_S640000x1_S640000x256_1_0_0_1_wf

class Facts : Prop extends Facts₀ where

variable [Facts]
-- ==== Proof.PreRange.lean ====
/-
  What the precondition says of the source indices: the conjunction of the finiteness tests and the range test is
  one, so the range test's conjunction over all edges is one, so at every edge both comparisons hold:
  -20000 ≤ src(e) and src(e) < 20000.
-/
import proofs.«408484_j72894184947742_1_alg».proof.Pre_finite_inputs
import Idealize.ShloMosaic.Lib.ReduceAll
import Idealize.ShloMosaic.Lib.ValueIdx

noncomputable section

namespace Cert.Pre_finite_inputs.Range

open Cert.Pre_finite_inputs Idealize.ShloMosaic Idealize.ShloMosaic.ValueIdx

variable [Facts]

/-- The scalar shape has one index. -/
instance : Subsingleton S_.Idx := ⟨fun a b => funext fun d => d.elim0⟩

/-- Where the precondition holds, every source index is at least -20000 and below 20000 (as signed words). -/
theorem src_bounds {F : FTy → Type} [FloatOps F] (a0 : FVec F S20000x256 .f32) (a1 : FVec F S640000x128 .f32)
    (a2 : FVec F S640000x64 .f32) (a3 a4 : IVec S640000 32) (a5 : FVec F S256x128 .f32) (a6 : FVec F S128 .f32)
    (a7 : FVec F S128x128 .f32) (a8 : FVec F S128 .f32) (a9 : FVec F S64x128 .f32) (a10 : FVec F S128 .f32)
    (a11 : FVec F S256x256 .f32)
    (h : fn (F := F) a0 a1 a2 a3 a4 a5 a6 a7 a8 a9 a10 a11 = fun _ => 1#1) (e : Fin 640000) :
    IntOp.cmpi .sge (a3 (ix1 e)) 4294947296#32 = 1#1 ∧ IntOp.cmpi .slt (a3 (ix1 e)) 20000#32 = 1#1 := by
  have h0 := congrFun h ix0
  unfold fn fn_part1 fn_part2 fn_part3 at h0
  dsimp only at h0
  obtain ⟨-, hall⟩ := IntOp.andi_eq_one.1 h0
  have he := Host.reduce_andi_all _ _ _ _ _ hall (ix1 e)
  exact IntOp.andi_eq_one.1 he

end Cert.Pre_finite_inputs.Range

end
-- ==== Proof.HostValues.lean ====
/-
  What the host operations between the launches compute, read off the program's stretches of host operations over
  ANY contents W of the buffers before the stretch:
    * before the first launch, the node bias is laid out as one row;
    * between the first and the second launch, the source indices are wrapped (a negative index counts from the end),
      the node projections are gathered at the wrapped indices, and a row whose wrapped index falls outside
      0 … 19999 is replaced by a not-a-number fill; the edge and distance biases are laid out as rows;
    * between the second and the third launch, the messages are summed into their destination rows.
  A buffer no operation of a stretch writes is read back unchanged.
-/
import proofs.«408484_j72894184947742_1_alg».proof.Proof.Gen.KernelIdeal.Frame
import Idealize.ShloMosaic.Lib.StableHlo.Run

set_option maxRecDepth 16384

noncomputable section

namespace Cert.KernelIdeal.HostValues

open Cert.KernelIdeal Cert.KernelIdeal.Gen Idealize.ShloMosaic Idealize.ShloMosaic.TcCoe Idealize.SL.Sem Idealize.ShloMosaic.StableHlo

variable {F : FTy → Type} [FloatOps F]

/-! ## The index vector and the in-range mask -/

/-- The source indices with a negative index counted from the end (20000 added), as a column. -/
def wrapIdx (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 20000#32))) src)

/-- One bit per entry of the gathered array: whether its edge's wrapped index lies in 0 … 19999. -/
def inRange (idx : IVec S640000x1 32) : IVec S640000x128 1 :=
  broadcastInDim S640000x128 ![0] bcast_S640000_S640000x128_0
    (Host.reduce IntOp.andi
      (andi (cmpi .sge idx (broadcastInDim S640000x1 ![] bcast_S_S640000x1 (constantI S_ 32 0#32)))
        (cmpi .sle idx (broadcastInDim S640000x1 ![0, 1] bcast_S1x1_S640000x1_0_1
          (broadcastInDim S1x1 ![1] bcast_S1_S1x1_1 (constantI S1 32 19999#32)))))
      (constantI S_ 1 1#1) reducesTo_S640000x1_S640000_d1 h_S_)

/-! ## Before the first launch -/

/-- The node bias as one row. -/
theorem nodeBias_read (W : Valuation τ sig (Elt F)) :
    StableHlo.after hostOps0 W (Proc.devRef .tc main_v0)
      = shapeCast S1x128 (W (Proc.devRef .tc main_arg6)) shapeCasts_S128_S1x128 := by
  after_results_simp
  rfl

/-- The first stretch leaves the node array as it was. -/
theorem nodes_kept0 (W : Valuation τ sig (Elt F)) :
    StableHlo.after hostOps0 W (Proc.devRef .tc main_arg0) = W (Proc.devRef .tc main_arg0) := by
  after_results_simp

/-- The first stretch leaves the node projection matrix as it was. -/
theorem wNode_kept0 (W : Valuation τ sig (Elt F)) :
    StableHlo.after hostOps0 W (Proc.devRef .tc main_arg5) = W (Proc.devRef .tc main_arg5) := by
  after_results_simp

/-! ## Between the first and the second launch -/

set_option maxRecDepth 65536 in
set_option maxHeartbeats 2000000 in
/-- The gathered source features: the node projections at the wrapped indices where those are in range, the fill
    elsewhere. -/
theorem take_read (W : Valuation τ sig (Elt F)) :
    StableHlo.after hostOps1_1 (StableHlo.after hostOps1 W) (Proc.devRef .tc main_v2)
      = select (inRange (wrapIdx (W (Proc.devRef .tc main_arg3))))
          (Host.gather gather_S20000x128_S640000x1_S640000x128_1_0_n_n_0_1_1128 (W (Proc.devRef .tc main_v1))
            (wrapIdx (W (Proc.devRef .tc main_arg3))))
          (broadcastInDim S640000x128 ![] bcast_S_S640000x128 (constant S_ .f32 0x7FC00000#32)) := by
  after_results_simp
  simp only [TRef.toBuf, TRef.ofBuf, cast_cast, cast_eq]
  unfold inRange wrapIdx
  rfl

set_option maxHeartbeats 2000000 in
/-- The edge bias as one row. -/
theorem edgeBias_read (W : Valuation τ sig (Elt F)) :
    StableHlo.after hostOps1_1 (StableHlo.after hostOps1 W) (Proc.devRef .tc main_v3)
      = shapeCast S1x128 (W (Proc.devRef .tc main_arg8)) shapeCasts_S128_S1x128 := by
  after_results_simp
  rfl

set_option maxHeartbeats 2000000 in
/-- The distance bias as one row. -/
theorem distBias_read (W : Valuation τ sig (Elt F)) :
    StableHlo.after hostOps1_1 (StableHlo.after hostOps1 W) (Proc.devRef .tc main_v4)
      = shapeCast S1x128 (W (Proc.devRef .tc main_arg10)) shapeCasts_S128_S1x128 := by
  after_results_simp
  rfl

set_option maxHeartbeats 2000000 in
/-- The second stretch leaves the edge features as they were. -/
theorem edges_kept1 (W : Valuation τ sig (Elt F)) :
    StableHlo.after hostOps1_1 (StableHlo.after hostOps1 W) (Proc.devRef .tc main_arg1) = W (Proc.devRef .tc main_arg1) := by
  after_results_simp

set_option maxHeartbeats 2000000 in
/-- The second stretch leaves the distances as they were. -/
theorem dist_kept1 (W : Valuation τ sig (Elt F)) :
    StableHlo.after hostOps1_1 (StableHlo.after hostOps1 W) (Proc.devRef .tc main_arg2) = W (Proc.devRef .tc main_arg2) := by
  after_results_simp

set_option maxHeartbeats 2000000 in
/-- The second stretch leaves the edge projection matrix as it was. -/
theorem wEdge_kept1 (W : Valuation τ sig (Elt F)) :
    StableHlo.after hostOps1_1 (StableHlo.after hostOps1 W) (Proc.devRef .tc main_arg7) = W (Proc.devRef .tc main_arg7) := by
  after_results_simp

set_option maxHeartbeats 2000000 in
/-- The second stretch leaves the distance projection matrix as it was. -/
theorem wDist_kept1 (W : Valuation τ sig (Elt F)) :
    StableHlo.after hostOps1_1 (StableHlo.after hostOps1 W) (Proc.devRef .tc main_arg9) = W (Proc.devRef .tc main_arg9) := by
  after_results_simp

set_option maxHeartbeats 2000000 in
/-- The second stretch leaves the combining matrix as it was. -/
theorem wComb_kept1 (W : Valuation τ sig (Elt F)) :
    StableHlo.after hostOps1_1 (StableHlo.after hostOps1 W) (Proc.devRef .tc main_arg11) = W (Proc.devRef .tc main_arg11) := by
  after_results_simp

set_option maxHeartbeats 2000000 in
/-- The second stretch leaves the destination indices as they were. -/
theorem dst_kept1 (W : Valuation τ sig (Elt F)) :
    StableHlo.after hostOps1_1 (StableHlo.after hostOps1 W) (Proc.devRef .tc main_arg4) = W (Proc.devRef .tc main_arg4) := by
  after_results_simp

/-! ## Between the second and the third launch -/

set_option maxHeartbeats 2000000 in
/-- The messages summed into their destination rows, from an array of zeros. -/
theorem scatter_read (W : Valuation τ sig (Elt F)) :
    StableHlo.after hostOps2 W (Proc.devRef .tc main_v8)
      = Host.scatterAdd scatter_S20000x256_S640000x1_S640000x256_1_0_0_1
          (broadcastInDim S20000x256 ![] bcast_S_S20000x256 (constant S_ .f32 0x00000000#32))
          (broadcastInDim S640000x1 ![0] bcast_S640000_S640000x1_0 (W (Proc.devRef .tc main_arg4)))
          (W (Proc.devRef .tc main_v5)) := by
  after_results_simp

end Cert.KernelIdeal.HostValues

end
-- ==== Proof.SrcRange.lean ====
/-
  The source indices in range. The precondition bounds every source index between -20000 and 19999. A negative
  index counts from the end, so after 20000 is added to the negative ones every index lies in 0 … 19999: the
  in-range mask the gather is guarded by is all ones, and the guarded gather is the plain gather.
  In two's complement: for -20000 ≤ x < 0 the sum x + 20000 does not wrap, and lies in 0 … 19999.
-/
import proofs.«408484_j72894184947742_1_alg».proof.Proof.HostValues
import proofs.«408484_j72894184947742_1_alg».proof.Pre_finite_inputs
import Idealize.ShloMosaic.Lib.ReduceAll
import Idealize.ShloMosaic.Lib.StableHlo.Predicate
import Idealize.ShloMosaic.Lib.Pipeline.Value
import Idealize.ShloMosaic.Lib.ValueIdx

noncomputable section

namespace Cert.KernelIdeal.SrcRange

open Cert.KernelIdeal Cert.KernelIdeal.Gen Cert.KernelIdeal.HostValues Idealize.ShloMosaic Idealize.ShloMosaic.ValueIdx

/-! ## One index -/

theorem toInt_zero : (0#32 : BitVec 32).toInt = 0 := by decide
theorem toInt_top : (19999#32 : BitVec 32).toInt = 19999 := by decide
theorem toInt_len : (20000#32 : BitVec 32).toInt = 20000 := by decide
theorem toInt_negLen : (4294947296#32 : BitVec 32).toInt = -20000 := by decide

/-- A word x with -20000 ≤ x < 20000, 20000 added when it is negative, lies in 0 … 19999. -/
theorem wrapped_in_range (x : BitVec 32) (h1 : IntOp.cmpi .sge x 4294947296#32 = 1#1)
    (h2 : IntOp.cmpi .slt x 20000#32 = 1#1) :
    IntOp.andi (IntOp.cmpi .sge (Scalar.select (IntOp.cmpi .slt x 0#32) (IntOp.addi x 20000#32) x) 0#32)
      (IntOp.cmpi .sle (Scalar.select (IntOp.cmpi .slt x 0#32) (IntOp.addi x 20000#32) x) 19999#32) = 1#1 := by
  have hlo : (-20000 : Int) ≤ x.toInt := by
    have := h1
    simp only [IntOp.cmpi, StableHlo.Predicate.ofBool_eq_one_iff, BitVec.sle, decide_eq_true_eq, toInt_negLen] at this
    omega
  have hhi : x.toInt < 20000 := by
    have := h2
    simp only [IntOp.cmpi, StableHlo.Predicate.ofBool_eq_one_iff, BitVec.slt, decide_eq_true_eq, toInt_len] at this
    omega
  rw [IntOp.andi_eq_one]
  by_cases hn : x.toInt < 0
  · have hs : IntOp.cmpi .slt x 0#32 = 1#1 := by
      simp only [IntOp.cmpi, StableHlo.Predicate.ofBool_eq_one_iff, BitVec.slt, decide_eq_true_eq, toInt_zero]; exact hn
    -- the sum does not wrap
    have hy : (IntOp.addi x 20000#32).toInt = x.toInt + 20000 := by
      show (x + 20000#32).toInt = _
      rw [BitVec.toInt_add, toInt_len]
      exact Int.bmod_eq_of_le (by omega) (by omega)
    rw [hs]
    have h11 : ((1#1 : BitVec 1) = 1) := by decide
    simp only [Scalar.select, if_pos h11]
    constructor
    · simp only [IntOp.cmpi, StableHlo.Predicate.ofBool_eq_one_iff, BitVec.sle, decide_eq_true_eq, toInt_zero, hy]; omega
    · simp only [IntOp.cmpi, StableHlo.Predicate.ofBool_eq_one_iff, BitVec.sle, decide_eq_true_eq, toInt_top, hy]; omega
  · have hs : IntOp.cmpi .slt x 0#32 = 0#1 := by
      simp only [IntOp.cmpi, BitVec.slt, toInt_zero, decide_eq_false hn]; rfl
    rw [hs]
    have hne : ¬ ((0#1 : BitVec 1) = 1) := by decide
    simp only [Scalar.select, if_neg hne]
    constructor
    · simp only [IntOp.cmpi, StableHlo.Predicate.ofBool_eq_one_iff, BitVec.sle, decide_eq_true_eq, toInt_zero]; omega
    · simp only [IntOp.cmpi, StableHlo.Predicate.ofBool_eq_one_iff, BitVec.sle, decide_eq_true_eq, toInt_top]; omega

/-! ## A conjunction over a set of bits that are all one -/

/-- A left fold by "and", from 1, over bits that are all 1 is 1. -/
theorem foldl_andi_all {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_all f hf l

/-- A reduction by "and", from 1, of an array of ones is one at every index. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hinit : ∀ k, init k = 1#1) :
    Host.reduce IntOp.andi x init h hu j = 1#1 := by
  rw [Host.reduce_eq_foldl, hinit]
  exact foldl_andi_all x hx _

/-! ## The index vector and the mask -/

/-- The wrapped index of edge e. -/
theorem wrapIdx_ix2 (src : IVec S640000 32) (e : Fin 640000) (u : Fin 1) :
    wrapIdx src (ix2 e u)
      = Scalar.select (IntOp.cmpi .slt (src (ix1 e)) 0#32) (IntOp.addi (src (ix1 e)) 20000#32) (src (ix1 e)) := by
  unfold wrapIdx
  rw [broadcastInDim_apply ![0] bcast_S640000_S640000x1_0 _ (ix2 e u) (ix1 e) (fun a => by
    match a with
    | ⟨0, _⟩ => show e.val = if (640000 : ℕ) = 1 then 0 else e.val; rw [if_neg (by decide)])]
  rfl

/-- Under the bounds the in-range mask is all ones. -/
theorem inRange_wrapIdx (src : IVec S640000 32)
    (hsrc : ∀ e : Fin 640000, IntOp.cmpi .sge (src (ix1 e)) 4294947296#32 = 1#1 ∧ IntOp.cmpi .slt (src (ix1 e)) 20000#32 = 1#1) :
    inRange (wrapIdx src) = fun _ => 1#1 := by
  funext i
  unfold inRange
  simp only [broadcastInDim]
  refine reduce_andi_of_all _ _ _ _ _ (fun j => ?_) (fun _ => rfl)
  obtain ⟨e, u, rfl⟩ : ∃ (e : Fin 640000) (u : Fin 1), j = ix2 e u := ⟨j 0, j 1, eq_ix2 j⟩
  show IntOp.andi (IntOp.cmpi .sge (wrapIdx src (ix2 e u)) 0#32) (IntOp.cmpi .sle (wrapIdx src (ix2 e u)) 19999#32) = 1#1
  rw [wrapIdx_ix2]
  exact wrapped_in_range _ (hsrc e).1 (hsrc e).2

/-- A selection under a mask of ones takes its first operand. -/
theorem select_ones {α : Type} {s : Shape} (a b : s.Idx → α) : select (fun _ => (1#1 : BitVec 1)) a b = a := by
  funext i
  have h11 : ((1#1 : BitVec 1) = 1) := by decide
  simp only [select, Scalar.select, if_pos h11]

end Cert.KernelIdeal.SrcRange

end
-- ==== Proof.Spec.lean ====
/-
  The three dense stages of one message-passing layer, each as a function of whole arrays, entry by entry over the
  extended reals:
    * an affine map of the rows of a matrix, x · w + b with the bias row b repeated down the rows (the node, distance
      and edge projections);
    * the per-edge map: the gathered source feature times the projected distance, laid beside the projected edge
      feature, the 256 columns so obtained multiplied into the combining matrix, then tanh;
    * the division of every row by its Euclidean norm.
  Each is written for ONE row r, over matrices of any number of rows, so that a block of rows and the whole array
  are instances of the same function; the congruence lemmas say that an entry depends on its own row only.
-/
import Idealize.ShloMosaic.PureOps.Ideal
import Idealize.ShloMosaic.Lib.ValueIdx

noncomputable section

namespace Cert.Spec

open Idealize.ShloMosaic Idealize.ShloMosaic.ValueIdx

/-- An a × b matrix of extended reals. -/
abbrev Mat (a b : ℕ) : Type := (⟨2, ![a, b]⟩ : Shape).Idx → EReal

/-- Entry (r, q) of x · w + b: the sum over k of x(r, k) · w(k, q), plus the bias row's entry q. -/
def affineAt {a n h : ℕ} (x : Mat a n) (w : Mat n h) (b : Mat 1 h) (r : Fin a) (q : Fin h) : EReal :=
  (∑ k : Fin n, x (ix2 r k) * w (ix2 k q)) + b (ix2 (0 : Fin 1) q)

/-- Entry (r, k) of the two per-edge feature blocks laid side by side: below column 128 the gathered source feature
    times the affine image of the distance row, from column 128 on the affine image of the edge row. -/
def pairAt {a : ℕ} (sf e : Mat a 128) (d : Mat a 64) (we : Mat 128 128) (be : Mat 1 128) (wd : Mat 64 128)
    (bd : Mat 1 128) (r : Fin a) (k : Fin 256) : EReal :=
  if hk : k.val < 128 then sf (ix2 r ⟨k.val, hk⟩) * affineAt d wd bd r ⟨k.val, hk⟩
  else affineAt e we be r ⟨k.val - 128, by have := k.isLt; omega⟩

/-- Entry (r, q) of the per-edge message: tanh of the paired features' row r times column q of the combining matrix. -/
def edgeAt {a : ℕ} (sf e : Mat a 128) (d : Mat a 64) (we : Mat 128 128) (be : Mat 1 128) (wd : Mat 64 128)
    (bd : Mat 1 128) (wc : Mat 256 256) (r : Fin a) (q : Fin 256) : EReal :=
  Ideal.tanh (∑ k : Fin 256, pairAt sf e d we be wd bd r k * wc (ix2 k q))

/-- Entry (r, q) of a matrix whose rows are divided by their Euclidean norms. -/
def unitAt {a : ℕ} (h : Mat a 256) (r : Fin a) (q : Fin 256) : EReal :=
  Ideal.div (h (ix2 r q)) (Ideal.sqrt (∑ k : Fin 256, h (ix2 r k) * h (ix2 r k)))

/-- The node projection of the whole node array. -/
def nodeProj (x : Mat 20000 256) (w : Mat 256 128) (b : Mat 1 128) : Mat 20000 128 :=
  fun i => affineAt x w b ⟨(i 0).val, idx2_lt0 i⟩ ⟨(i 1).val, idx2_lt1 i⟩

/-- The per-edge messages of the whole edge list. -/
def edgeMlp (sf e : Mat 640000 128) (d : Mat 640000 64) (we : Mat 128 128) (be : Mat 1 128) (wd : Mat 64 128)
    (bd : Mat 1 128) (wc : Mat 256 256) : Mat 640000 256 :=
  fun i => edgeAt sf e d we be wd bd wc ⟨(i 0).val, idx2_lt0 i⟩ ⟨(i 1).val, idx2_lt1 i⟩

/-- The row-normalised node array. -/
def unitRows (h : Mat 20000 256) : Mat 20000 256 :=
  fun i => unitAt h ⟨(i 0).val, idx2_lt0 i⟩ ⟨(i 1).val, idx2_lt1 i⟩

theorem nodeProj_ix2 (x : Mat 20000 256) (w : Mat 256 128) (b : Mat 1 128) (r : Fin 20000) (q : Fin 128) :
    nodeProj x w b (ix2 r q) = affineAt x w b r q := rfl

theorem edgeMlp_ix2 (sf e : Mat 640000 128) (d : Mat 640000 64) (we : Mat 128 128) (be : Mat 1 128) (wd : Mat 64 128)
    (bd : Mat 1 128) (wc : Mat 256 256) (r : Fin 640000) (q : Fin 256) :
    edgeMlp sf e d we be wd bd wc (ix2 r q) = edgeAt sf e d we be wd bd wc r q := rfl

theorem unitRows_ix2 (h : Mat 20000 256) (r : Fin 20000) (q : Fin 256) : unitRows h (ix2 r q) = unitAt h r q := rfl

/-- An affine image's entry depends on row r of x only. -/
theorem affineAt_congr {a a' n h : ℕ} (x : Mat a n) (x' : Mat a' n) (w : Mat n h) (b : Mat 1 h) (r : Fin a) (r' : Fin a')
    (q : Fin h) (hx : ∀ k, x (ix2 r k) = x' (ix2 r' k)) : affineAt x w b r q = affineAt x' w b r' q := by
  unfold affineAt
  rw [Finset.sum_congr rfl fun k _ => by rw [hx k]]

/-- A paired entry depends on row r of the three edge-indexed matrices only. -/
theorem pairAt_congr {a a' : ℕ} (sf e : Mat a 128) (d : Mat a 64) (sf' e' : Mat a' 128) (d' : Mat a' 64)
    (we : Mat 128 128) (be : Mat 1 128) (wd : Mat 64 128) (bd : Mat 1 128) (r : Fin a) (r' : Fin a') (k : Fin 256)
    (hsf : ∀ j, sf (ix2 r j) = sf' (ix2 r' j)) (he : ∀ j, e (ix2 r j) = e' (ix2 r' j))
    (hd : ∀ j, d (ix2 r j) = d' (ix2 r' j)) :
    pairAt sf e d we be wd bd r k = pairAt sf' e' d' we be wd bd r' k := by
  unfold pairAt
  split
  · rw [hsf, affineAt_congr d d' wd bd r r' _ hd]
  · rw [affineAt_congr e e' we be r r' _ he]

/-- A message entry depends on row r of the three edge-indexed matrices only. -/
theorem edgeAt_congr {a a' : ℕ} (sf e : Mat a 128) (d : Mat a 64) (sf' e' : Mat a' 128) (d' : Mat a' 64)
    (we : Mat 128 128) (be : Mat 1 128) (wd : Mat 64 128) (bd : Mat 1 128) (wc : Mat 256 256) (r : Fin a) (r' : Fin a')
    (q : Fin 256) (hsf : ∀ j, sf (ix2 r j) = sf' (ix2 r' j)) (he : ∀ j, e (ix2 r j) = e' (ix2 r' j))
    (hd : ∀ j, d (ix2 r j) = d' (ix2 r' j)) :
    edgeAt sf e d we be wd bd wc r q = edgeAt sf' e' d' we be wd bd wc r' q := by
  unfold edgeAt
  rw [Finset.sum_congr rfl fun k _ => by rw [pairAt_congr sf e d sf' e' d' we be wd bd r r' k hsf he hd]]

/-- A normalised entry depends on row r only. -/
theorem unitAt_congr {a a' : ℕ} (h : Mat a 256) (h' : Mat a' 256) (r : Fin a) (r' : Fin a') (q : Fin 256)
    (hh : ∀ k, h (ix2 r k) = h' (ix2 r' k)) : unitAt h r q = unitAt h' r' q := by
  unfold unitAt
  rw [hh q, Finset.sum_congr rfl fun k _ => by rw [hh k]]

end Cert.Spec

end
-- ==== Proof.NodeProjValue.lean ====
/-
  The first launch: every block of 2000 node rows is multiplied into the projection matrix and the bias row added;
  the array the launch leaves is the affine image of the whole node array.

  Two parts. First, one block: the value stored for a block x of 2000 rows, the 256 × 128 matrix w and the bias row b
  has, at (p, q), the entry ∑ₖ x(p, k) · w(k, q) + b(0, q) — the product into a zero accumulator is that sum over the
  one contracted axis, the narrowing of the operands changes nothing over the extended reals, and the bias row is
  repeated down the rows. Second, all blocks: at grid point t the node block is rows 2000 t … 2000 t + 1999 of the node
  array and the matrix and bias blocks are the whole matrix and bias row, so, an entry of an affine image depending on
  its own row only, what point t writes back is rows 2000 t … 2000 t + 1999 of the affine image of the whole array; row r
  lies in the block of point r / 2000, so the ten blocks fill the output.
-/
import proofs.«408484_j72894184947742_1_alg».proof.Proof.Gen.KernelIdeal.Frame
import proofs.«408484_j72894184947742_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeProjValue

open Cert.KernelIdeal Cert.KernelIdeal.Gen Idealize.ShloMosaic Idealize.ShloMosaic.TcCoe Idealize.ShloMosaic.ValueIdx Idealize.SL.Sem
open Idealize.ShloMosaic.Pipeline (Dat Cfg Window)

-- the buffer contents the launch is entered with: a parameter
variable (V : (c : Dev nD) → (b : Ref sig .tc) → Buf (Elt Ideal) ((c : Thread nD τ).loc b))

/-! ## One block: the stored value at an index -/

/-- In the product's left operand the row is the output's row … -/
theorem lhs_row (i : S2000x128.Idx) (s : dot_S2000x256_S256x128_S2000x128_1_0_0_1_n_n.contr.Idx) :
    (dot_S2000x256_S256x128_S2000x128_1_0_0_1_n_n.lhsIdx i s 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- … and the column is the summation index; -/
theorem lhs_col (i : S2000x128.Idx) (s : dot_S2000x256_S256x128_S2000x128_1_0_0_1_n_n.contr.Idx) :
    (dot_S2000x256_S256x128_S2000x128_1_0_0_1_n_n.lhsIdx i s 1).val = (s ⟨0, by decide⟩).val :=
  dot_S2000x256_S256x128_S2000x128_1_0_0_1_n_n.lhsIdx_val_of_single rfl i s
/-- in the right operand the row is the summation index … -/
theorem rhs_row (i : S2000x128.Idx) (s : dot_S2000x256_S256x128_S2000x128_1_0_0_1_n_n.contr.Idx) :
    (dot_S2000x256_S256x128_S2000x128_1_0_0_1_n_n.rhsIdx i s 0).val = (s ⟨0, by decide⟩).val :=
  dot_S2000x256_S256x128_S2000x128_1_0_0_1_n_n.rhsIdx_val_of_single rfl i s
/-- … and the column is the output's column. -/
theorem rhs_col (i : S2000x128.Idx) (s : dot_S2000x256_S256x128_S2000x128_1_0_0_1_n_n.contr.Idx) :
    (dot_S2000x256_S256x128_S2000x128_1_0_0_1_n_n.rhsIdx i s 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A 2000 × 256 block times a 256 × 128 matrix, accumulated into zero, read at (p, q): the sum over k of the block's
    (p, k) times the matrix's (k, q). -/
theorem matmul_block_apply (x : FVec Ideal S2000x256 .bf16) (w : FVec Ideal S256x128 .bf16) (p : Fin 2000) (q : Fin 128) :
    matmul dot_S2000x256_S256x128_S2000x128_1_0_0_1_n_n none x w (constant (F := Ideal) S2000x128 .f32 0x00000000#32) (ix2 p q)
      = ∑ k : Fin 256, x (ix2 p k) * w (ix2 k q) := by
  show FloatOps.matmul dot_S2000x256_S256x128_S2000x128_1_0_0_1_n_n none x w (constant S2000x128 .f32 0x00000000#32) (ix2 p q) = _
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_row _ _
    | ⟨1, _⟩ => exact (lhs_col _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_row _ _).trans hk
    | ⟨1, _⟩ => exact rhs_col _ _)
  rw [el, er]

/-- What is stored for a block of 2000 node rows, the projection matrix and the bias row, read at (p, q): entry (p, q)
    of the block's affine image. -/
theorem pay_apply (x0 : Vec Ideal S2000x256 .f32) (x1 : Vec Ideal S256x128 .f32) (x2 : Vec Ideal S1x128 .f32) (p : Fin 2000) (q : Fin 128) :
    k0_pay1 x0 x1 x2 (ix2 p q) = Cert.Spec.affineAt x0 x1 x2 p q := by
  unfold k0_pay1 Cert.Spec.affineAt
  rw [addf_apply, matmul_block_apply, shapeCast_self, broadcastTo_1b_ab_apply]
  rfl

/-- The same as one function of the index. -/
theorem pay_eq (x0 : Vec Ideal S2000x256 .f32) (x1 : Vec Ideal S256x128 .f32) (x2 : Vec Ideal S1x128 .f32) :
    k0_pay1 x0 x1 x2 = fun i => Cert.Spec.affineAt x0 x1 x2 ⟨(i 0).val, idx2_lt0 i⟩ ⟨(i 1).val, idx2_lt1 i⟩ := by
  funext i
  obtain ⟨p, q, rfl⟩ : ∃ (p : Fin 2000) (q : Fin 128), i = ix2 p q := ⟨i 0, i 1, eq_ix2 i⟩
  exact pay_apply x0 x1 x2 p q

/-! ## From a block's entry to the array's -/

/-- An affine image's entry (r, q) depends on row r of x, column q of w and entry q of b only. -/
theorem affineAt_congr3 {a a' n h : ℕ} (x : Cert.Spec.Mat a n) (x' : Cert.Spec.Mat a' n) (w w' : Cert.Spec.Mat n h)
    (b b' : Cert.Spec.Mat 1 h) (r : Fin a) (r' : Fin a') (q : Fin h) (hx : ∀ k, x (ix2 r k) = x' (ix2 r' k))
    (hw : ∀ k, w (ix2 k q) = w' (ix2 k q)) (hb : b (ix2 (0 : Fin 1) q) = b' (ix2 (0 : Fin 1) q)) :
    Cert.Spec.affineAt x w b r q = Cert.Spec.affineAt x' w' b' r' q := by
  unfold Cert.Spec.affineAt
  rw [hb, Finset.sum_congr rfl fun k _ => by rw [hx k, hw k]]

/-- Entry (p, q) of the affine image of a block B0 of rows is the whole array's affine image at the index i, when i is
    row n · 2000 + p and column q, row p of the block is that row of the array, and the matrix and the bias row agree. -/
theorem entry_of_block (A0 : Cert.Spec.Mat 20000 256) (A1 : Cert.Spec.Mat 256 128) (A2 : Cert.Spec.Mat 1 128)
    (B0 : Cert.Spec.Mat 2000 256) (B1 : Cert.Spec.Mat 256 128) (B2 : Cert.Spec.Mat 1 128) (n : ℕ) (p : Fin 2000) (q : Fin 128)
    (i : (⟨2, ![20000, 128]⟩ : Shape).Idx) (hi0 : (i 0).val = n * 2000 + p.val) (hi1 : (i 1).val = q.val)
    (h0 : ∀ r : Fin 20000, r.val = n * 2000 + p.val → ∀ k : Fin 256, B0 (ix2 p k) = A0 (ix2 r k))
    (h1 : ∀ (k : Fin 256) (q : Fin 128), B1 (ix2 k q) = A1 (ix2 k q))
    (h2 : ∀ q : Fin 128, B2 (ix2 (0 : Fin 1) q) = A2 (ix2 (0 : Fin 1) q)) :
    Cert.Spec.affineAt B0 B1 B2 p q = Cert.Spec.nodeProj A0 A1 A2 i := by
  show _ = Cert.Spec.affineAt A0 A1 A2 ⟨(i 0).val, idx2_lt0 i⟩ ⟨(i 1).val, idx2_lt1 i⟩
  obtain rfl : q = ⟨(i 1).val, idx2_lt1 i⟩ := Fin.ext hi1.symm
  exact affineAt_congr3 B0 A0 B1 A1 B2 A2 p _ _ (h0 _ hi0) (fun k => h1 k _) (h2 _)

/-! ## The blocks at a grid point -/

/-- The offsets (0, 0), as the constant function. -/
theorem zero_offsets : (![0, 0] : Fin 2 → Nat) = fun _ => 0 := funext fun a => by fin_cases a <;> rfl

/-- Where the four blocks sit at grid point t: the node block and the output block are the t-th block of rows; the
    matrix and the bias row have one block each. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the node block at point t is row t · 2000 + p of the node array. -/
theorem nodeBlock_apply (c : Dev nD) (t : Fin cfg0.N) (p : Fin 2000) (k : Fin 256) (r : Fin 20000)
    (hr : r.val = t.val * 2000 + p.val) :
    iblk0 (F := Ideal) V c 0 t (ix2 p k) = (V c (Pipeline.arrRef spec0 0)) (ix2 r k) := by
  obtain ⟨e0, e1, -⟩ := block_indices t
  unfold iblk0
  show (V c (Pipeline.arrRef spec0 0)) (((cfg0.win 0).blk t).view.emb (ix2 p k)) = _
  refine congrArg _ (funext fun a => Fin.ext ?_)
  match a with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- The matrix's one block is the matrix. -/
theorem matBlock_apply (c : Dev nD) (t : Fin cfg0.N) (k : Fin 256) (q : Fin 128) :
    iblk0 (F := Ideal) V c 1 t (ix2 k q) = (V c (Pipeline.arrRef spec0 1)) (ix2 k q) := by
  obtain ⟨-, -, e0, e1, -⟩ := block_indices t
  unfold iblk0
  show (V c (Pipeline.arrRef spec0 1)) (((cfg0.win 1).blk t).view.emb (ix2 k q)) = _
  refine congrArg _ (funext fun a => Fin.ext ?_)
  match a with
  | ⟨0, _⟩ => show win0_1.index t (0 : Fin 2) * 256 + 1 * k.val = k.val; rw [e0]; omega
  | ⟨1, _⟩ => show win0_1.index t (1 : Fin 2) * 128 + 1 * q.val = q.val; rw [e1]; omega

/-- The bias row's one block is the bias row. -/
theorem biasBlock_apply (c : Dev nD) (t : Fin cfg0.N) (q : Fin 128) :
    iblk0 (F := Ideal) V c 2 t (ix2 (0 : Fin 1) q) = (V c (Pipeline.arrRef spec0 2)) (ix2 (0 : Fin 1) q) := by
  obtain ⟨-, -, -, -, e0, e1, -⟩ := block_indices t
  unfold iblk0
  show (V c (Pipeline.arrRef spec0 2)) (((cfg0.win 2).blk t).view.emb (ix2 (0 : Fin 1) q)) = _
  refine congrArg _ (funext fun a => Fin.ext ?_)
  match a with
  | ⟨0, _⟩ => show win0_2.index t (0 : Fin 2) * 1 + 1 * 0 = 0; rw [e0]
  | ⟨1, _⟩ => show win0_2.index t (1 : Fin 2) * 128 + 1 * q.val = q.val; rw [e1]; omega

/-! ## The output array -/

/-- What point t writes back is block t of the affine image of the whole node array. -/
theorem writeback_eq (c : Dev nD) (t : Fin cfg0.N) :
    (dat0 (F := Ideal) V c).flushed 3 t = ((cfg0.win 3).blk t).view.read (Elt Ideal)
      (Cert.Spec.nodeProj (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets]
  simp only [View.ld_unit_zero (S := S2000x256) zero_offsets, View.ld_unit_zero (S := S256x128) zero_offsets,
    View.ld_unit_zero (S := S1x128) zero_offsets]
  rw [pay_eq]
  obtain ⟨-, -, -, -, -, -, e0, e1⟩ := block_indices t
  funext j
  show Cert.Spec.affineAt (iblk0 V c 0 t) (iblk0 V c 1 t) (iblk0 V c 2 t) ⟨(j 0).val, (j 0).isLt⟩ ⟨(j 1).val, (j 1).isLt⟩
    = Cert.Spec.nodeProj (V c (Pipeline.arrRef spec0 0)) (V c (Pipeline.arrRef spec0 1)) (V c (Pipeline.arrRef spec0 2)) (((cfg0.win 3).blk t).view.emb j)
  refine entry_of_block _ _ _ _ _ _ t.val _ _ _ ?_ ?_ (fun r hr k => nodeBlock_apply V c t _ k r hr)
    (fun k q => matBlock_apply V c t k q) (fun q => biasBlock_apply V c t q)
  · show win0_3.index t (0 : Fin 2) * 2000 + 1 * (j 0).val = t.val * 2000 + (j 0).val
    rw [e0]; omega
  · show win0_3.index t (1 : Fin 2) * 128 + 1 * (j 1).val = (j 1).val
    rw [e1]; omega

/-- An index of the output array is in point t's block iff each coordinate is in the block's range on its axis. -/
theorem mem_outBlock (t : Fin cfg0.N) (i : S20000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v1).slice (win0_3.rect t)).set ↔ _
  rw [View.set_slice_whole, Rect.mem_set_unit]
  exact Iff.rfl

/-- Every index of the output array is in the block of the point its row divided by 2000 names. -/
theorem rows_covered (i : S20000x128.Idx) :
    ∃ t : Fin cfg0.N, (cfg0.win 3).flush t = true ∧ i ∈ ((cfg0.win 3).blk t).view.set := by
  have hi0 : (i 0).val < 20000 := (i 0).isLt
  have hi1 : (i 1).val < 128 := (i 1).isLt
  have hN : cfg0.N = 10 := N_0
  refine ⟨⟨(i 0).val / 2000, by rw [hN]; omega⟩, flush0_3 _, ?_⟩
  rw [mem_outBlock]
  obtain ⟨-, -, -, -, -, -, e0, e1⟩ := block_indices ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e0]
    show (i 0).val / 2000 * 2000 ≤ (i 0).val ∧ (i 0).val < (i 0).val / 2000 * 2000 + 2000
    omega
  | ⟨1, _⟩ =>
    show win0_3.index _ (1 : Fin 2) * 128 ≤ (i 1).val ∧ (i 1).val < win0_3.index _ (1 : Fin 2) * 128 + 128
    rw [e1]; omega

/-- After the launch the output array holds x · w + b of the arrays the launch was entered with. -/
theorem final (c : Dev nD) :
    (dat0 (F := Ideal) V c).arrAt 3 cfg0.N
      = Cert.Spec.nodeProj (V c (Pipeline.arrRef spec0 0)) (V c (Pipeline.arrRef spec0 1)) (V c (Pipeline.arrRef spec0 2)) := by
  exact (dat0 (F := Ideal) V c).arrAt_eq_of_cover 3 _ (fun t _ => writeback_eq V c t) rows_covered

end Cert.KernelIdeal.NodeProjValue

end
-- ==== Proof.EdgeMlpValue.lean ====
/-
  The second launch: every block of 8000 edges is mapped to its messages; the array the launch leaves is the
  per-edge message map of the whole edge list.

  First the body at one entry. Each of its three products into a zero accumulator is, at (p, q), the sum over the
  contracted axis of the operands' products; a bias row repeated down the rows reads the row's entry q; two blocks of
  128 columns laid side by side read the left block below column 128 and the right one from there on; tanh acts entry
  by entry. Together: entry (p, q) of the body's result is the per-edge message of row p of the block, the same
  function of a row that the whole-array map applies to every row.

  Then from the blocks to the array. At point t the three edge-indexed inputs and the output are at block row t, so
  row p of a block is row 8000 t + p of its array, while every weight matrix and bias row has one block, the whole
  array. Hence what point t writes back is block t of the whole-array map; the 80 blocks of 8000 rows cover the
  640000 rows (row r lies in block r / 8000), so the array ends holding that map.
-/
import proofs.«408484_j72894184947742_1_alg».proof.Proof.Gen.KernelIdeal.Frame
import proofs.«408484_j72894184947742_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeMlpValue

open Cert.KernelIdeal Cert.KernelIdeal.Gen Idealize.ShloMosaic Idealize.ShloMosaic.TcCoe Idealize.ShloMosaic.ValueIdx Idealize.SL.Sem
open Idealize.ShloMosaic.Pipeline (Dat Cfg Window)

-- the buffer contents the launch is entered with: a parameter
variable (V : (c : Dev nD) → (b : Ref sig .tc) → Buf (Elt Ideal) ((c : Thread nD τ).loc b))

/-! ## The three products of the body, entry by entry

Each product contracts the left operand's columns against the right operand's rows: at output entry (i₀, i₁) and
contraction index k it reads the left operand at (i₀, k) and the right operand at (k, i₁). The four coordinate facts
are stated per product, then the product at an entry as the sum over k. -/

theorem lhsDist_0 (i : S8000x128.Idx) (q : dot_S8000x64_S64x128_S8000x128_1_0_0_1_n_n.contr.Idx) :
    (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl
theorem lhsDist_1 (i : S8000x128.Idx) (q : dot_S8000x64_S64x128_S8000x128_1_0_0_1_n_n.contr.Idx) :
    (dot_S8000x64_S64x128_S8000x128_1_0_0_1_n_n.lhsIdx i q 1).val = (q ⟨0, by decide⟩).val :=
  dot_S8000x64_S64x128_S8000x128_1_0_0_1_n_n.lhsIdx_val_of_single rfl i q
theorem rhsDist_0 (i : S8000x128.Idx) (q : dot_S8000x64_S64x128_S8000x128_1_0_0_1_n_n.contr.Idx) :
    (dot_S8000x64_S64x128_S8000x128_1_0_0_1_n_n.rhsIdx i q 0).val = (q ⟨0, by decide⟩).val :=
  dot_S8000x64_S64x128_S8000x128_1_0_0_1_n_n.rhsIdx_val_of_single rfl i q
theorem rhsDist_1 (i : S8000x128.Idx) (q : dot_S8000x64_S64x128_S8000x128_1_0_0_1_n_n.contr.Idx) :
    (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl

/-- Entry (p, q) of the distance block times the distance weights: the sum over the 64 distance features. -/
theorem matmulDist_apply (x : FVec Ideal S8000x64 .bf16) (w : FVec Ideal S64x128 .bf16) (p : Fin 8000) (q : Fin 128) :
    matmul dot_S8000x64_S64x128_S8000x128_1_0_0_1_n_n none x w (constant S8000x128 .f32 0x00000000#32) (ix2 p q)
      = ∑ k : Fin 64, x (ix2 p k) * w (ix2 k q) := by
  simp only [matmul]
  rw [Ideal.matmul_constant_zero_apply, ← Equiv.sum_comp (contrEquiv1 dot_S8000x64_S64x128_S8000x128_1_0_0_1_n_n 64 rfl rfl).symm]
  refine Finset.sum_congr rfl fun k _ => ?_
  have hk := contrEquiv1_symm_val dot_S8000x64_S64x128_S8000x128_1_0_0_1_n_n 64 rfl rfl k
  have el : dot_S8000x64_S64x128_S8000x128_1_0_0_1_n_n.lhsIdx (ix2 p q) ((contrEquiv1 dot_S8000x64_S64x128_S8000x128_1_0_0_1_n_n 64 rfl rfl).symm k) = ix2 p k := funext fun a => Fin.ext (by
    match a with
    | ⟨0, _⟩ => exact lhsDist_0 _ _
    | ⟨1, _⟩ => exact (lhsDist_1 _ _).trans hk)
  have er : dot_S8000x64_S64x128_S8000x128_1_0_0_1_n_n.rhsIdx (ix2 p q) ((contrEquiv1 dot_S8000x64_S64x128_S8000x128_1_0_0_1_n_n 64 rfl rfl).symm k) = ix2 k q := funext fun a => Fin.ext (by
    match a with
    | ⟨0, _⟩ => exact (rhsDist_0 _ _).trans hk
    | ⟨1, _⟩ => exact rhsDist_1 _ _)
  rw [el, er]

theorem lhsEdge_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhsEdge_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhsEdge_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhsEdge_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- Entry (p, q) of the edge block times the edge weights: the sum over the 128 edge features. -/
theorem matmulEdge_apply (x : FVec Ideal S8000x128 .bf16) (w : FVec Ideal S128x128 .bf16) (p : Fin 8000) (q : Fin 128) :
    matmul dot_S8000x128_S128x128_S8000x128_1_0_0_1_n_n none x w (constant S8000x128 .f32 0x00000000#32) (ix2 p q)
      = ∑ k : Fin 128, x (ix2 p k) * w (ix2 k q) := by
  simp only [matmul]
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q) ((contrEquiv1 dot_S8000x128_S128x128_S8000x128_1_0_0_1_n_n 128 rfl rfl).symm k) = ix2 p k := funext fun a => Fin.ext (by
    match a with
    | ⟨0, _⟩ => exact lhsEdge_0 _ _
    | ⟨1, _⟩ => exact (lhsEdge_1 _ _).trans hk)
  have er : dot_S8000x128_S128x128_S8000x128_1_0_0_1_n_n.rhsIdx (ix2 p q) ((contrEquiv1 dot_S8000x128_S128x128_S8000x128_1_0_0_1_n_n 128 rfl rfl).symm k) = ix2 k q := funext fun a => Fin.ext (by
    match a with
    | ⟨0, _⟩ => exact (rhsEdge_0 _ _).trans hk
    | ⟨1, _⟩ => exact rhsEdge_1 _ _)
  rw [el, er]

theorem lhsComb_0 (i : S8000x256.Idx) (q : dot_S8000x256_S256x256_S8000x256_1_0_0_1_n_n.contr.Idx) :
    (dot_S8000x256_S256x256_S8000x256_1_0_0_1_n_n.lhsIdx i q 0).val = (i 0).val := by
  unfold DotDims.lhsIdx
  rw [dif_neg (show ¬(0 : Fin S8000x256.rank) ∈ dot_S8000x256_S256x256_S8000x256_1_0_0_1_n_n.lhsBatch by decide), dif_pos (show (0 : Fin S8000x256.rank) ∈ dot_S8000x256_S256x256_S8000x256_1_0_0_1_n_n.lhsNonContracting by decide)]
  rfl
theorem lhsComb_1 (i : S8000x256.Idx) (q : dot_S8000x256_S256x256_S8000x256_1_0_0_1_n_n.contr.Idx) :
    (dot_S8000x256_S256x256_S8000x256_1_0_0_1_n_n.lhsIdx i q 1).val = (q ⟨0, by decide⟩).val :=
  dot_S8000x256_S256x256_S8000x256_1_0_0_1_n_n.lhsIdx_val_of_single rfl i q
theorem rhsComb_0 (i : S8000x256.Idx) (q : dot_S8000x256_S256x256_S8000x256_1_0_0_1_n_n.contr.Idx) :
    (dot_S8000x256_S256x256_S8000x256_1_0_0_1_n_n.rhsIdx i q 0).val = (q ⟨0, by decide⟩).val :=
  dot_S8000x256_S256x256_S8000x256_1_0_0_1_n_n.rhsIdx_val_of_single rfl i q
theorem rhsComb_1 (i : S8000x256.Idx) (q : dot_S8000x256_S256x256_S8000x256_1_0_0_1_n_n.contr.Idx) :
    (dot_S8000x256_S256x256_S8000x256_1_0_0_1_n_n.rhsIdx i q 1).val = (i 1).val := by
  unfold DotDims.rhsIdx
  rw [dif_neg (show ¬(1 : Fin S256x256.rank) ∈ dot_S8000x256_S256x256_S8000x256_1_0_0_1_n_n.rhsBatch by decide), dif_pos (show (1 : Fin S256x256.rank) ∈ dot_S8000x256_S256x256_S8000x256_1_0_0_1_n_n.rhsNonContracting by decide)]
  rfl

/-- Entry (p, q) of the paired block times the combining matrix: the sum over the 256 paired columns. -/
theorem matmulComb_apply (x : FVec Ideal S8000x256 .bf16) (w : FVec Ideal S256x256 .bf16) (p : Fin 8000) (q : Fin 256) :
    matmul dot_S8000x256_S256x256_S8000x256_1_0_0_1_n_n none x w (constant S8000x256 .f32 0x00000000#32) (ix2 p q)
      = ∑ k : Fin 256, x (ix2 p k) * w (ix2 k q) := by
  simp only [matmul]
  rw [Ideal.matmul_constant_zero_apply, ← Equiv.sum_comp (contrEquiv1 dot_S8000x256_S256x256_S8000x256_1_0_0_1_n_n 256 rfl rfl).symm]
  refine Finset.sum_congr rfl fun k _ => ?_
  have hk := contrEquiv1_symm_val dot_S8000x256_S256x256_S8000x256_1_0_0_1_n_n 256 rfl rfl k
  have el : dot_S8000x256_S256x256_S8000x256_1_0_0_1_n_n.lhsIdx (ix2 p q) ((contrEquiv1 dot_S8000x256_S256x256_S8000x256_1_0_0_1_n_n 256 rfl rfl).symm k) = ix2 p k := funext fun a => Fin.ext (by
    match a with
    | ⟨0, _⟩ => exact lhsComb_0 _ _
    | ⟨1, _⟩ => exact (lhsComb_1 _ _).trans hk)
  have er : dot_S8000x256_S256x256_S8000x256_1_0_0_1_n_n.rhsIdx (ix2 p q) ((contrEquiv1 dot_S8000x256_S256x256_S8000x256_1_0_0_1_n_n 256 rfl rfl).symm k) = ix2 k q := funext fun a => Fin.ext (by
    match a with
    | ⟨0, _⟩ => exact (rhsComb_0 _ _).trans hk
    | ⟨1, _⟩ => exact rhsComb_1 _ _)
  rw [el, er]

/-! ## Two blocks laid side by side, and the body's result entry by entry -/

/-- Two blocks of 128 columns laid side by side, read at column k: the left block below column 128, the right block,
    128 columns back, from there on. -/
theorem concat_apply {a : ℕ} {α : Type} (m1 m2 : (⟨2, ![a, 128]⟩ : Shape).Idx → α)
    (h : Shape.Concatenates [(⟨2, ![a, 128]⟩ : Shape), ⟨2, ![a, 128]⟩] ⟨2, ![a, 256]⟩ 1) (p : Fin a) (k : Fin 256) :
    concatenate ⟨2, ![a, 256]⟩ 1 [⟨⟨2, ![a, 128]⟩, m1⟩, ⟨⟨2, ![a, 128]⟩, m2⟩] h (ix2 p k)
      = if hk : k.val < 128 then m1 (ix2 p ⟨k.val, hk⟩) else m2 (ix2 p ⟨k.val - 128, by have := k.isLt; omega⟩) := by
  split
  · next hk =>
    refine concatenate_pair_apply_left 1 m1 m2 h (ix2 p k) rfl (ix2 p ⟨k.val, hk⟩) fun b => ?_
    match b with
    | ⟨0, _⟩ => rfl
    | ⟨1, _⟩ => rfl
  · next hk =>
    refine concatenate_pair_apply_right 1 m1 m2 h (ix2 p k) rfl rfl (ix2 p ⟨k.val - 128, by have := k.isLt; omega⟩) (fun b hb => ?_) ?_
    · match b with
      | ⟨0, _⟩ => rfl
      | ⟨1, _⟩ => exact absurd rfl hb
    · show (k.val - 128) + 128 = k.val
      omega

/-- THE BODY AT AN ENTRY: what the body computes from a block of 8000 edges, at row p and column q, is the per-edge
    message of that block's row p. -/
theorem pay_apply (v0 v2 : Vec Ideal S8000x128 .f32) (v4 : Vec Ideal S8000x64 .f32) (v6 : Vec Ideal S128x128 .f32)
    (v8 : Vec Ideal S64x128 .f32) (v10 : Vec Ideal S256x256 .f32) (v13 v19 : Vec Ideal S1x128 .f32)
    (p : Fin 8000) (q : Fin 256) :
    k1_pay1 v0 v2 v4 v6 v8 v10 v13 v19 (ix2 p q) = Cert.Spec.edgeAt v0 v2 v4 v6 v19 v8 v13 v10 p q := by
  unfold k1_pay1 Cert.Spec.edgeAt
  show Ideal.tanh _ = Ideal.tanh _
  refine congrArg Ideal.tanh ?_
  rw [matmulComb_apply]
  refine Finset.sum_congr rfl fun k _ => ?_
  rw [truncf_apply, truncf_apply, concat_apply]
  congr 1
  unfold Cert.Spec.pairAt
  split
  · next hk =>
    rw [mulf_apply, shapeCast_self, addf_apply, matmulDist_apply, shapeCast_self, broadcastTo_1b_ab_apply]
    unfold Cert.Spec.affineAt
    simp only [truncf_apply]
  · next hk =>
    rw [addf_apply, matmulEdge_apply, shapeCast_self, broadcastTo_1b_ab_apply]
    unfold Cert.Spec.affineAt
    simp only [truncf_apply]

/-! ## From the blocks to the array -/

theorem zero_offsets : (![0, 0] : Fin 2 → Nat) = fun _ => 0 := funext fun a => by fin_cases a <;> rfl

/-- Where the blocks sit, decided once over the 80 points: at point t the three edge-indexed inputs and the output
    are at block row t, block column 0; every weight and bias window is at its one block. -/
theorem block_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0)
    ∧ t.val < 80 :=
  (by decide +kernel : ∀ t : Fin grid1.N, _)

/-- Row p of the source-feature block at point t is row 8000 t + p of the source-feature array. -/
theorem blk_src (c : Dev nD) (t : Fin cfg1.N) (p : Fin 8000) (r : Fin 640000) (hr : r.val = t.val * 8000 + p.val) (j : Fin 128) :
    (iblk1 V c 0 t : Vec Ideal S8000x128 .f32) (ix2 p j) = (V c (Pipeline.arrRef spec1 0) : Cert.Spec.Mat 640000 128) (ix2 r j) := by
  obtain ⟨e0, e1⟩ := (block_index t).1
  unfold iblk1
  show (V c (Pipeline.arrRef spec1 0) : Cert.Spec.Mat 640000 128) (((cfg1.win 0).blk t).view.emb (ix2 p j)) = _
  refine congrArg _ (funext fun a => Fin.ext ?_)
  match a with
  | ⟨0, _⟩ => show win1_0.index t (0 : Fin 2) * 8000 + 1 * p.val = r.val; omega
  | ⟨1, _⟩ => show win1_0.index t (1 : Fin 2) * 128 + 1 * j.val = j.val; omega

/-- Row p of the edge-feature block at point t is row 8000 t + p of the edge-feature array. -/
theorem blk_edge (c : Dev nD) (t : Fin cfg1.N) (p : Fin 8000) (r : Fin 640000) (hr : r.val = t.val * 8000 + p.val) (j : Fin 128) :
    (iblk1 V c 1 t : Vec Ideal S8000x128 .f32) (ix2 p j) = (V c (Pipeline.arrRef spec1 1) : Cert.Spec.Mat 640000 128) (ix2 r j) := by
  obtain ⟨e0, e1⟩ := (block_index t).2.1
  unfold iblk1
  show (V c (Pipeline.arrRef spec1 1) : Cert.Spec.Mat 640000 128) (((cfg1.win 1).blk t).view.emb (ix2 p j)) = _
  refine congrArg _ (funext fun a => Fin.ext ?_)
  match a with
  | ⟨0, _⟩ => show win1_1.index t (0 : Fin 2) * 8000 + 1 * p.val = r.val; omega
  | ⟨1, _⟩ => show win1_1.index t (1 : Fin 2) * 128 + 1 * j.val = j.val; omega

/-- Row p of the distance block at point t is row 8000 t + p of the distance array. -/
theorem blk_dist (c : Dev nD) (t : Fin cfg1.N) (p : Fin 8000) (r : Fin 640000) (hr : r.val = t.val * 8000 + p.val) (j : Fin 64) :
    (iblk1 V c 2 t : Vec Ideal S8000x64 .f32) (ix2 p j) = (V c (Pipeline.arrRef spec1 2) : Cert.Spec.Mat 640000 64) (ix2 r j) := by
  obtain ⟨e0, e1⟩ := (block_index t).2.2.1
  unfold iblk1
  show (V c (Pipeline.arrRef spec1 2) : Cert.Spec.Mat 640000 64) (((cfg1.win 2).blk t).view.emb (ix2 p j)) = _
  refine congrArg _ (funext fun a => Fin.ext ?_)
  match a with
  | ⟨0, _⟩ => show win1_2.index t (0 : Fin 2) * 8000 + 1 * p.val = r.val; omega
  | ⟨1, _⟩ => show win1_2.index t (1 : Fin 2) * 64 + 1 * j.val = j.val; omega

/-- The edge weights' one block is the whole matrix, at every point. -/
theorem blk_wEdge (c : Dev nD) (t : Fin cfg1.N) :
    (iblk1 V c 3 t : Vec Ideal S128x128 .f32) = (V c (Pipeline.arrRef spec1 3) : Cert.Spec.Mat 128 128) := by
  obtain ⟨e0, e1⟩ := (block_index t).2.2.2.1
  funext y
  obtain ⟨u, v, rfl⟩ : ∃ (u : Fin 128) (v : Fin 128), y = ix2 u v := ⟨y 0, y 1, eq_ix2 y⟩
  unfold iblk1
  show (V c (Pipeline.arrRef spec1 3) : Cert.Spec.Mat 128 128) (((cfg1.win 3).blk t).view.emb (ix2 u v)) = _
  refine congrArg _ (funext fun d => Fin.ext ?_)
  match d with
  | ⟨0, _⟩ => show win1_3.index t (0 : Fin 2) * 128 + 1 * u.val = u.val; omega
  | ⟨1, _⟩ => show win1_3.index t (1 : Fin 2) * 128 + 1 * v.val = v.val; omega

/-- The edge bias row's one block is the whole row, at every point. -/
theorem blk_bEdge (c : Dev nD) (t : Fin cfg1.N) :
    (iblk1 V c 4 t : Vec Ideal S1x128 .f32) = (V c (Pipeline.arrRef spec1 4) : Cert.Spec.Mat 1 128) := by
  obtain ⟨e0, e1⟩ := (block_index t).2.2.2.2.1
  funext y
  obtain ⟨u, v, rfl⟩ : ∃ (u : Fin 1) (v : Fin 128), y = ix2 u v := ⟨y 0, y 1, eq_ix2 y⟩
  unfold iblk1
  show (V c (Pipeline.arrRef spec1 4) : Cert.Spec.Mat 1 128) (((cfg1.win 4).blk t).view.emb (ix2 u v)) = _
  refine congrArg _ (funext fun d => Fin.ext ?_)
  match d with
  | ⟨0, _⟩ => show win1_4.index t (0 : Fin 2) * 1 + 1 * u.val = u.val; omega
  | ⟨1, _⟩ => show win1_4.index t (1 : Fin 2) * 128 + 1 * v.val = v.val; omega

/-- The distance weights' one block is the whole matrix, at every point. -/
theorem blk_wDist (c : Dev nD) (t : Fin cfg1.N) :
    (iblk1 V c 5 t : Vec Ideal S64x128 .f32) = (V c (Pipeline.arrRef spec1 5) : Cert.Spec.Mat 64 128) := by
  obtain ⟨e0, e1⟩ := (block_index t).2.2.2.2.2.1
  funext y
  obtain ⟨u, v, rfl⟩ : ∃ (u : Fin 64) (v : Fin 128), y = ix2 u v := ⟨y 0, y 1, eq_ix2 y⟩
  unfold iblk1
  show (V c (Pipeline.arrRef spec1 5) : Cert.Spec.Mat 64 128) (((cfg1.win 5).blk t).view.emb (ix2 u v)) = _
  refine congrArg _ (funext fun d => Fin.ext ?_)
  match d with
  | ⟨0, _⟩ => show win1_5.index t (0 : Fin 2) * 64 + 1 * u.val = u.val; omega
  | ⟨1, _⟩ => show win1_5.index t (1 : Fin 2) * 128 + 1 * v.val = v.val; omega

/-- The distance bias row's one block is the whole row, at every point. -/
theorem blk_bDist (c : Dev nD) (t : Fin cfg1.N) :
    (iblk1 V c 6 t : Vec Ideal S1x128 .f32) = (V c (Pipeline.arrRef spec1 6) : Cert.Spec.Mat 1 128) := by
  obtain ⟨e0, e1⟩ := (block_index t).2.2.2.2.2.2.1
  funext y
  obtain ⟨u, v, rfl⟩ : ∃ (u : Fin 1) (v : Fin 128), y = ix2 u v := ⟨y 0, y 1, eq_ix2 y⟩
  unfold iblk1
  show (V c (Pipeline.arrRef spec1 6) : Cert.Spec.Mat 1 128) (((cfg1.win 6).blk t).view.emb (ix2 u v)) = _
  refine congrArg _ (funext fun d => Fin.ext ?_)
  match d with
  | ⟨0, _⟩ => show win1_6.index t (0 : Fin 2) * 1 + 1 * u.val = u.val; omega
  | ⟨1, _⟩ => show win1_6.index t (1 : Fin 2) * 128 + 1 * v.val = v.val; omega

/-- The combining matrix's one block is the whole matrix, at every point. -/
theorem blk_wComb (c : Dev nD) (t : Fin cfg1.N) :
    (iblk1 V c 7 t : Vec Ideal S256x256 .f32) = (V c (Pipeline.arrRef spec1 7) : Cert.Spec.Mat 256 256) := by
  obtain ⟨e0, e1⟩ := (block_index t).2.2.2.2.2.2.2.1
  funext y
  obtain ⟨u, v, rfl⟩ : ∃ (u : Fin 256) (v : Fin 256), y = ix2 u v := ⟨y 0, y 1, eq_ix2 y⟩
  unfold iblk1
  show (V c (Pipeline.arrRef spec1 7) : Cert.Spec.Mat 256 256) (((cfg1.win 7).blk t).view.emb (ix2 u v)) = _
  refine congrArg _ (funext fun d => Fin.ext ?_)
  match d with
  | ⟨0, _⟩ => show win1_7.index t (0 : Fin 2) * 256 + 1 * u.val = u.val; omega
  | ⟨1, _⟩ => show win1_7.index t (1 : Fin 2) * 256 + 1 * v.val = v.val; omega

/-- WHAT POINT t WRITES BACK is block t of the per-edge messages of the arrays the launch was entered with. -/
theorem flushed_eq (c : Dev nD) (t : Fin cfg1.N) :
    (dat1 (F := Ideal) V c).flushed 8 t = ((cfg1.win 8).blk t).view.read (Elt Ideal)
      (Cert.Spec.edgeMlp (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7))) := by
  show (cfg1.win 8).cut (grid1.coords t) ((dat1 V c).after 8 t) = _
  rw [after1_8]
  unfold out1_8
  rw [View.canon_unit_zero zero_offsets]
  simp only [View.ld_unit_zero (S := S8000x128) zero_offsets, View.ld_unit_zero (S := S8000x64) zero_offsets,
    View.ld_unit_zero (S := S128x128) zero_offsets, View.ld_unit_zero (S := S64x128) zero_offsets,
    View.ld_unit_zero (S := S256x256) zero_offsets, View.ld_unit_zero (S := S1x128) zero_offsets]
  funext y
  obtain ⟨p, q, rfl⟩ : ∃ (p : Fin 8000) (q : Fin 256), y = ix2 p q := ⟨y 0, y 1, eq_ix2 y⟩
  obtain ⟨e0, e1⟩ := (block_index t).2.2.2.2.2.2.2.2.1
  have hlt : t.val < 80 := (block_index t).2.2.2.2.2.2.2.2.2
  have hr : t.val * 8000 + p.val < 640000 := by have := p.isLt; omega
  show k1_pay1 (iblk1 V c 0 t) (iblk1 V c 1 t) (iblk1 V c 2 t) (iblk1 V c 3 t) (iblk1 V c 5 t) (iblk1 V c 7 t)
        (iblk1 V c 6 t) (iblk1 V c 4 t) (ix2 p q)
      = (Cert.Spec.edgeMlp (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7))) (((cfg1.win 8).blk t).view.emb (ix2 p q))
  have hemb : ((cfg1.win 8).blk t).view.emb (ix2 p q) = (ix2 (⟨t.val * 8000 + p.val, hr⟩ : Fin 640000) q : S640000x256.Idx) :=
    funext fun a => Fin.ext (by
      match a with
      | ⟨0, _⟩ => show win1_8.index t (0 : Fin 2) * 8000 + 1 * p.val = t.val * 8000 + p.val; omega
      | ⟨1, _⟩ => show win1_8.index t (1 : Fin 2) * 256 + 1 * q.val = q.val; omega)
  rw [hemb, Cert.Spec.edgeMlp_ix2]
  refine (pay_apply _ _ _ _ _ _ _ _ p q).trans ?_
  rw [blk_wEdge V c t, blk_bEdge V c t, blk_wDist V c t, blk_bDist V c t, blk_wComb V c t]
  exact Cert.Spec.edgeAt_congr _ _ _ _ _ _ _ _ _ _ _ p ⟨_, hr⟩ q (fun j => blk_src V c t p _ rfl j)
    (fun j => blk_edge V c t p _ rfl j) (fun j => blk_dist V c t p _ rfl j)

/-- An index of the output array is in point t's block iff each of its coordinates is in the block's range on its axis. -/
theorem mem_blk (t : Fin cfg1.N) (i : S640000x256.Idx) :
    i ∈ ((cfg1.win 8).blk t).view.set ↔ ∀ a : Fin 2, win1_8.index t a * S8000x256.size a ≤ (i a).val
      ∧ (i a).val < win1_8.index t a * S8000x256.size a + S8000x256.size a := by
  show i ∈ ((View.whole main_v5).slice (win1_8.rect t)).set ↔ _
  rw [View.set_slice_whole, Rect.mem_set_unit]
  exact Iff.rfl

/-- THE BLOCKS COVER THE ARRAY: row r of the output lies in the block of point r / 8000, which is written back. -/
theorem cover (i : S640000x256.Idx) :
    ∃ t : Fin cfg1.N, (cfg1.win 8).flush t = true ∧ i ∈ ((cfg1.win 8).blk t).view.set := by
  have hi0 : (i 0).val < 640000 := (i 0).isLt
  have hi1 : (i 1).val < 256 := (i 1).isLt
  have hN : cfg1.N = 80 := N_1
  obtain ⟨t, ht⟩ : ∃ t : Fin cfg1.N, t.val = (i 0).val / 8000 := ⟨⟨(i 0).val / 8000, by rw [hN]; omega⟩, rfl⟩
  obtain ⟨e0, e1⟩ := (block_index t).2.2.2.2.2.2.2.2.1
  refine ⟨t, flush1_8 t, ?_⟩
  rw [mem_blk]
  intro a
  match a with
  | ⟨0, _⟩ =>
    show win1_8.index t (0 : Fin 2) * 8000 ≤ (i 0).val ∧ (i 0).val < win1_8.index t (0 : Fin 2) * 8000 + 8000
    omega
  | ⟨1, _⟩ =>
    show win1_8.index t (1 : Fin 2) * 256 ≤ (i 1).val ∧ (i 1).val < win1_8.index t (1 : Fin 2) * 256 + 256
    omega

/-- After the launch the output array holds the per-edge messages of the arrays the launch was entered with. -/
theorem final (c : Dev nD) :
    (dat1 (F := Ideal) V c).arrAt 8 cfg1.N
      = Cert.Spec.edgeMlp (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7)) := by
  exact (dat1 V c).arrAt_eq_of_cover 8 _ (fun t _ => flushed_eq V c t) cover

end Cert.KernelIdeal.EdgeMlpValue

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.UnitRowsValue.lean ====
/-
  The third launch divides every row of the node array by the row's Euclidean norm, 2000 rows at a time.

  First one entry of what the body stores for a block x of 2000 rows: entry (p, q) is x(p, q) over the square root
  of the sum over the 256 columns k of x(p, k)², which is the specification's row-normalised entry of x. Then from
  the blocks to the array: at grid point t the input and the output windows both sit at rows 2000 t … 2000 t + 1999,
  all 256 columns; a normalised entry depends on its own row only, so what point t writes back is block t of the
  row-normalised whole array; the ten blocks cover the 20000 rows (row r lies in the block of point r / 2000), hence
  the array the launch leaves is the row-normalised array it was entered with.
-/
import proofs.«408484_j72894184947742_1_alg».proof.Proof.Gen.KernelIdeal.Frame
import proofs.«408484_j72894184947742_1_alg».proof.Proof.Spec
import proofs.«408484_j72894184947742_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.UnitRowsValue

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## One entry of what the body stores -/

/-- The zero offsets of a whole-block access, as the constant function. -/
theorem off_zero : (![0, 0] : Fin 2 → Nat) = fun _ => 0 := funext fun a => by fin_cases a <;> rfl

/-- The sum along the 256 columns of a 2000 × 256 block, read at row p: the sum over k of the entries (p, k). -/
theorem rowSum_apply (x : FVec Ideal S2000x256 .f32) (h : S2000x256.Reduces [1] S2000) (hφ : FKind.Formats .f32)
    (hacc : (0x00000000#32 : BitVec 32) = 0x00000000#32) (p : Fin 2000) :
    multiReduction (F := Ideal) .add [1] S2000 x 0x00000000#32 h hφ hacc (ix1 p) = ∑ k : Fin 256, x (ix2 p k) := by
  refine (Ideal.multiReduction_add_single x 0x00000000#32 h hφ hacc (ix1 p)).trans ?_
  refine Finset.sum_congr rfl fun k _ => congrArg x ?_
  funext a
  apply Fin.ext
  match a with
  | ⟨0, _⟩ => rfl
  | ⟨1, _⟩ => rfl

/-- A square root taken entry by entry, read at an index. -/
theorem sqrt_apply {s : Shape} {φ : FTy} (a : FVec Ideal s φ) (i : s.Idx) :
    Idealize.ShloMosaic.sqrt a i = Ideal.sqrt (a i) := rfl

/-- Entry (p, q) of what the body stores for a block x of 2000 rows: x(p, q) over the square root of the sum of the
    squares of row p. -/
theorem pay_apply (x : Vec Ideal S2000x256 .f32) (p : Fin 2000) (q : Fin 256) :
    k2_pay1 (F := Ideal) x (ix2 p q) = Cert.Spec.unitAt x p q := by
  unfold k2_pay1 Cert.Spec.unitAt
  dsimp only
  rw [shapeCast_self, divf_apply, Cert.LibColumn.broadcastTo_a1_ab_apply, sqrt_apply,
    Cert.LibColumn.shapeCast_a_a1_apply, rowSum_apply]
  rfl

/-- The same at any index of the block, by its two coordinates. -/
theorem pay_at (x : Vec Ideal S2000x256 .f32) (j : S2000x256.Idx) :
    k2_pay1 (F := Ideal) x j = Cert.Spec.unitAt x ⟨(j 0).val, idx2_lt0 j⟩ ⟨(j 1).val, idx2_lt1 j⟩ := by
  obtain ⟨p, q, rfl⟩ : ∃ (p : Fin 2000) (q : Fin 256), j = ix2 p q := ⟨j 0, j 1, eq_ix2 j⟩
  exact pay_apply x p q

/-! ## From the blocks to the array -/

-- the buffer contents the launch is entered with: a parameter
variable (V : (c : Dev nD) → (b : Ref sig .tc) → Buf (Elt Ideal) ((c : Thread nD τ).loc b))

/-- The two index maps, decided over the ten grid points: at point t both windows are at block row t, block column 0. -/
theorem index_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- The input window's block at a grid point is the entry array read at the block's place. -/
theorem inBlock_apply (c : Dev nD) (t : Fin cfg2.N) (y : ((cfg2.win 0).xblock (cfg2.grid.coords t)).Idx) :
    iblk2 V c 0 t y = V c (Pipeline.arrRef spec2 0) (((cfg2.win 0).blk t).view.emb y) := rfl

/-- Row p of the input block at point t is row 2000 t + p of the array: entry (p, k) of the one is entry
    (2000 t + p, k) of the other. -/
theorem inBlock_row (c : Dev nD) (t : Fin cfg2.N) (p : Fin 2000) (r : Fin 20000) (hr : r.val = t.val * 2000 + p.val)
    (k : Fin 256) :
    (iblk2 V c 0 t : Cert.Spec.Mat 2000 256) (ix2 p k) = (V c (Pipeline.arrRef spec2 0) : Cert.Spec.Mat 20000 256) (ix2 r k) := by
  obtain ⟨e0, e1, -, -⟩ := index_facts t
  refine (inBlock_apply V c t (ix2 p k)).trans (congrArg (V c (Pipeline.arrRef spec2 0)) ?_)
  funext a
  apply Fin.ext
  match a with
  | ⟨0, _⟩ => show win2_0.index t (0 : Fin 2) * 2000 + 1 * p.val = r.val; omega
  | ⟨1, _⟩ => show win2_0.index t (1 : Fin 2) * 256 + 1 * k.val = k.val; omega

/-- What a grid point writes back is its block of the row-normalised array. -/
theorem flushed_eq (c : Dev nD) (t : Fin cfg2.N) :
    (dat2 (F := Ideal) V c).flushed 1 t
      = ((cfg2.win 1).blk t).view.read (Elt Ideal) (Cert.Spec.unitRows (V c (Pipeline.arrRef spec2 0))) := by
  show (cfg2.win 1).cut (grid2.coords t) ((dat2 V c).after 1 t) = _
  rw [after2_1]
  unfold out2_1
  rw [View.canon_unit_zero off_zero]
  simp only [View.ld_unit_zero (S := S2000x256) off_zero]
  obtain ⟨-, -, e2, e3⟩ := index_facts t
  funext j
  have hj0 : (j 0).val < 2000 := (j 0).isLt
  have hj1 : (j 1).val < 256 := (j 1).isLt
  have ht : t.val < 10 := t.isLt.trans_eq N_2
  show k2_pay1 (F := Ideal) (iblk2 V c 0 t) (ix2 ⟨(j 0).val, hj0⟩ ⟨(j 1).val, hj1⟩)
    = Cert.Spec.unitAt (V c (Pipeline.arrRef spec2 0))
        ⟨win2_1.index t (0 : Fin 2) * 2000 + 1 * (j 0).val, _⟩ ⟨win2_1.index t (1 : Fin 2) * 256 + 1 * (j 1).val, _⟩
  rw [pay_apply]
  have hq : (⟨win2_1.index t (1 : Fin 2) * 256 + 1 * (j 1).val, by omega⟩ : Fin 256) = ⟨(j 1).val, hj1⟩ :=
    Fin.ext (by show win2_1.index t (1 : Fin 2) * 256 + 1 * (j 1).val = (j 1).val; omega)
  rw [hq]
  have hr : win2_1.index t (0 : Fin 2) * 2000 + 1 * (j 0).val < 20000 := by omega
  exact Cert.Spec.unitAt_congr (iblk2 V c 0 t) (V c (Pipeline.arrRef spec2 0)) ⟨(j 0).val, hj0⟩ ⟨_, hr⟩ ⟨(j 1).val, hj1⟩
    fun k => inBlock_row V c t ⟨(j 0).val, hj0⟩ ⟨_, hr⟩
      (by show win2_1.index t (0 : Fin 2) * 2000 + 1 * (j 0).val = t.val * 2000 + (j 0).val; omega) k

/-- An index of the array is in a grid point's block iff each coordinate is in the block's range on its axis. -/
theorem mem_block (t : Fin cfg2.N) (i : S20000x256.Idx) :
    i ∈ ((cfg2.win 1).blk t).view.set ↔ ∀ a : Fin 2, win2_1.index t a * S2000x256.size a ≤ (i a).val
      ∧ (i a).val < win2_1.index t a * S2000x256.size a + S2000x256.size a := by
  show i ∈ ((View.whole main_v9).slice (win2_1.rect t)).set ↔ _
  rw [View.set_slice_whole, Rect.mem_set_unit]
  exact Iff.rfl

/-- Every index of the array is in some written-back block: row r is in the block of point r / 2000. -/
theorem covered (i : S20000x256.Idx) :
    ∃ t : Fin cfg2.N, (cfg2.win 1).flush t = true ∧ i ∈ ((cfg2.win 1).blk t).view.set := by
  have hi0 : (i 0).val < 20000 := (i 0).isLt
  have hi1 : (i 1).val < 256 := (i 1).isLt
  obtain ⟨t, ht⟩ : ∃ t : Fin cfg2.N, t.val = (i 0).val / 2000 :=
    ⟨⟨(i 0).val / 2000, by show (i 0).val / 2000 < grid2.N; rw [N_2]; omega⟩, rfl⟩
  obtain ⟨-, -, e2, e3⟩ := index_facts t
  refine ⟨t, flush2_1 t, ?_⟩
  rw [mem_block]
  intro a
  match a with
  | ⟨0, _⟩ =>
    show win2_1.index t (0 : Fin 2) * 2000 ≤ (i 0).val ∧ (i 0).val < win2_1.index t (0 : Fin 2) * 2000 + 2000
    omega
  | ⟨1, _⟩ =>
    show win2_1.index t (1 : Fin 2) * 256 ≤ (i 1).val ∧ (i 1).val < win2_1.index t (1 : Fin 2) * 256 + 256
    omega

/-- After the launch the output array holds the row-normalised array the launch was entered with. -/
theorem final (c : Dev nD) :
    (dat2 (F := Ideal) V c).arrAt 1 cfg2.N = Cert.Spec.unitRows (V c (Pipeline.arrRef spec2 0)) :=
  (dat2 (F := Ideal) V c).arrAt_eq_of_cover 1 (Cert.Spec.unitRows (V c (Pipeline.arrRef spec2 0)))
    (fun t _ => flushed_eq V c t) covered

end Cert.KernelIdeal.UnitRowsValue

end
-- ==== Proof.KernelValue.lean ====
/-
  The kernel program's result as one function of the launch memory. Walking the program's boundaries backwards:
  the result buffer is what the third launch leaves, the row-normalised array of destination sums; those are the
  scatter-add of the messages the second launch leaves; the messages are the per-edge map of the gathered source
  features (the first launch's node projections at the wrapped source indices — the guard is all ones, the indices
  being in range) and of the edge and distance arrays, which no host operation and no launch writes.
-/
import proofs.«408484_j72894184947742_1_alg».proof.Proof.KernelRun
import proofs.«408484_j72894184947742_1_alg».proof.Proof.HostValues
import proofs.«408484_j72894184947742_1_alg».proof.Proof.SrcRange
import proofs.«408484_j72894184947742_1_alg».proof.Proof.NodeProjValue
import proofs.«408484_j72894184947742_1_alg».proof.Proof.EdgeMlpValue
import proofs.«408484_j72894184947742_1_alg».proof.Proof.UnitRowsValue

set_option maxRecDepth 16384

noncomputable section

namespace Cert.KernelIdeal.Whole

open Cert.KernelIdeal Cert.KernelIdeal.Gen Cert.KernelIdeal.HostValues
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## A buffer nobody writes is read back at its launch contents -/

/-- Before the first launch only the node bias row is written. -/
theorem W1_of_ne (c : Dev nD) (b : Ref sig .tc) (hb : b ≠ main_v0) :
    W1 m ρ c (Proc.devRef .tc b) = m ((c : Thread nD τ).loc b) :=
  (StableHlo.after_of_forall_not_mem (b := Proc.devRef .tc b) _ _ (List.forall_iff_forall_mem.mp (by
      simp only [hostOps0, List.Forall, StableHlo.reshape_writes, Finset.mem_singleton]
      exact StableHlo.devRef_ne_of_ne hb))).trans rfl

/-- The first launch writes its output array only. -/
theorem W2_kept (c : Dev nD) (b : Ref sig .tc) (hb : b ≠ main_v0) (hw : ∀ w, Pipeline.arrRef spec0 w ≠ b) :
    W2 m ρ c (Proc.devRef .tc b) = m ((c : Thread nD τ).loc b) :=
  (W2_of_ne m ρ c b hw).trans (W1_of_ne m ρ c b hb)

/-! ## The stages -/

/-- The node projections. -/
def nodeProjArr (c : Dev nD) : Cert.Spec.Mat 20000 128 :=
  Cert.Spec.nodeProj (m ((c : Thread nD τ).loc main_arg0)) (m ((c : Thread nD τ).loc main_arg5))
    (shapeCast S1x128 (m ((c : Thread nD τ).loc main_arg6)) shapeCasts_S128_S1x128)

/-- The node projections gathered at the wrapped source indices. -/
def srcFeat (c : Dev nD) : Cert.Spec.Mat 640000 128 :=
  Host.gather gather_S20000x128_S640000x1_S640000x128_1_0_n_n_0_1_1128 (nodeProjArr m c)
    (wrapIdx (m ((c : Thread nD τ).loc main_arg3)))

/-- The per-edge messages. -/
def messages (c : Dev nD) : Cert.Spec.Mat 640000 256 :=
  Cert.Spec.edgeMlp (srcFeat m c) (m ((c : Thread nD τ).loc main_arg1)) (m ((c : Thread nD τ).loc main_arg2)) (m ((c : Thread nD τ).loc main_arg7))
    (shapeCast S1x128 (m ((c : Thread nD τ).loc main_arg8)) shapeCasts_S128_S1x128) (m ((c : Thread nD τ).loc main_arg9))
    (shapeCast S1x128 (m ((c : Thread nD τ).loc main_arg10)) shapeCasts_S128_S1x128) (m ((c : Thread nD τ).loc main_arg11))

/-- The messages summed into their destination rows. -/
def sums (c : Dev nD) : Cert.Spec.Mat 20000 256 :=
  Host.scatterAdd (F := Ideal) scatter_S20000x256_S640000x1_S640000x256_1_0_0_1
    (broadcastInDim S20000x256 ![] bcast_S_S20000x256 (constant (F := Ideal) S_ .f32 0x00000000#32))
    (broadcastInDim S640000x1 ![0] bcast_S640000_S640000x1_0 (m ((c : Thread nD τ).loc main_arg4)))
    (messages m c)

/-- The program's result: the destination sums with every row divided by its norm. -/
def result (c : Dev nD) : Cert.Spec.Mat 20000 256 := Cert.Spec.unitRows (sums m c)

/-! ## The boundaries -/

/-- After the first launch its output array holds the node projections. -/
theorem W2_nodeProj (c : Dev nD) : W2 m ρ c (Proc.devRef .tc main_v1) = nodeProjArr m c := by
  have h := NodeProjValue.final (V1 m ρ) c
  rw [show V1 m ρ c (Pipeline.arrRef spec0 0) = m ((c : Thread nD τ).loc main_arg0) from W1_of_ne m ρ c main_arg0 (by decide),
    show V1 m ρ c (Pipeline.arrRef spec0 1) = m ((c : Thread nD τ).loc main_arg5) from W1_of_ne m ρ c main_arg5 (by decide),
    show V1 m ρ c (Pipeline.arrRef spec0 2) = shapeCast S1x128 (m ((c : Thread nD τ).loc main_arg6)) shapeCasts_S128_S1x128
      from nodeBias_read (W0 m ρ c)] at h
  exact (W2_arr m ρ c 3).trans h

/-- The bounds on the source indices, as the precondition gives them. -/
def SrcBounds : Prop :=
  ∀ (c : Dev nD) (e : Fin 640000),
    IntOp.cmpi .sge ((m ((c : Thread nD τ).loc main_arg3) : IVec S640000 32) (ix1 e)) 4294947296#32 = 1#1
      ∧ IntOp.cmpi .slt ((m ((c : Thread nD τ).loc main_arg3) : IVec S640000 32) (ix1 e)) 20000#32 = 1#1

/-- Entering the second launch, its first window's array holds the gathered source features. -/
theorem W4_srcFeat (hsrc : SrcBounds m) (c : Dev nD) : W4 m ρ c (Proc.devRef .tc main_v2) = srcFeat m c := by
  have h := take_read (W2 m ρ c)
  rw [W2_kept m ρ c main_arg3 (by decide) (by decide), W2_nodeProj m ρ c,
    SrcRange.inRange_wrapIdx _ (hsrc c), SrcRange.select_ones] at h
  exact h

/-- After the second launch its output array holds the messages. -/
theorem W5_messages (hsrc : SrcBounds m) (c : Dev nD) : W5 m ρ c (Proc.devRef .tc main_v5) = messages m c := by
  have h := EdgeMlpValue.final (V4 m ρ) c
  rw [show V4 m ρ c (Pipeline.arrRef spec1 0) = srcFeat m c from W4_srcFeat m ρ hsrc c,
    show V4 m ρ c (Pipeline.arrRef spec1 1) = m ((c : Thread nD τ).loc main_arg1)
      from (edges_kept1 (W2 m ρ c)).trans (W2_kept m ρ c main_arg1 (by decide) (by decide)),
    show V4 m ρ c (Pipeline.arrRef spec1 2) = m ((c : Thread nD τ).loc main_arg2)
      from (dist_kept1 (W2 m ρ c)).trans (W2_kept m ρ c main_arg2 (by decide) (by decide)),
    show V4 m ρ c (Pipeline.arrRef spec1 3) = m ((c : Thread nD τ).loc main_arg7)
      from (wEdge_kept1 (W2 m ρ c)).trans (W2_kept m ρ c main_arg7 (by decide) (by decide)),
    show V4 m ρ c (Pipeline.arrRef spec1 4) = shapeCast S1x128 (m ((c : Thread nD τ).loc main_arg8)) shapeCasts_S128_S1x128
      from (edgeBias_read (W2 m ρ c)).trans (by rw [W2_kept m ρ c main_arg8 (by decide) (by decide)]),
    show V4 m ρ c (Pipeline.arrRef spec1 5) = m ((c : Thread nD τ).loc main_arg9)
      from (wDist_kept1 (W2 m ρ c)).trans (W2_kept m ρ c main_arg9 (by decide) (by decide)),
    show V4 m ρ c (Pipeline.arrRef spec1 6) = shapeCast S1x128 (m ((c : Thread nD τ).loc main_arg10)) shapeCasts_S128_S1x128
      from (distBias_read (W2 m ρ c)).trans (by rw [W2_kept m ρ c main_arg10 (by decide) (by decide)]),
    show V4 m ρ c (Pipeline.arrRef spec1 7) = m ((c : Thread nD τ).loc main_arg11)
      from (wComb_kept1 (W2 m ρ c)).trans (W2_kept m ρ c main_arg11 (by decide) (by decide))] at h
  exact (W5_arr m ρ c 8).trans h

/-- Entering the third launch, its input array holds the destination sums. -/
theorem W6_sums (hsrc : SrcBounds m) (c : Dev nD) : W6 m ρ c (Proc.devRef .tc main_v8) = sums m c := by
  have h := scatter_read (W5 m ρ c)
  rw [W5_messages m ρ hsrc c,
    show W5 m ρ c (Proc.devRef .tc main_arg4) = m ((c : Thread nD τ).loc main_arg4)
      from (W5_of_ne m ρ c main_arg4 (by decide)).trans
        ((dst_kept1 (W2 m ρ c)).trans (W2_kept m ρ c main_arg4 (by decide) (by decide)))] at h
  exact h

/-- After the third launch the result buffer holds the row-normalised sums. -/
theorem W7_result (hsrc : SrcBounds m) (c : Dev nD) : W7 m ρ c (Proc.devRef .tc main_v9) = result m c := by
  have h := UnitRowsValue.final (V6 m ρ) c
  rw [show V6 m ρ c (Pipeline.arrRef spec2 0) = sums m c from W6_sums m ρ hsrc c] at h
  exact (W7_arr m ρ c 1).trans h

/-! ## The run -/

/-- Every weakly fair execution of the kernel program terminates, nothing faulting, with the result buffer at
    `result` of the launch memory and the arguments unchanged. -/
theorem run (hsrc : SrcBounds m) : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W7_result m ρ hsrc c), (h c).2⟩) (RunNamed.run m ρ)

end Cert.KernelIdeal.Whole

end
-- ==== Proof.RefStages.lean ====
/-
  The reference's three dense stages, written with whole-array operations, are the entry-by-entry functions of the
  specification.

  Each stage is a composition of whole-array operations on extended reals: a matrix product (a sum over the one
  contracted axis), the repetition of a bias row down the rows, an entrywise sum or product, the laying of two
  matrices side by side, tanh, a row sum, a square root, a division.  Read at one entry (r, q) every one of them is a
  plain expression in entries of its operands: a product is the sum over k of x(r, k) · w(k, q); a repeated row reads
  the row's entry q; two matrices side by side read the left one below column 128 and the right one, 128 columns to
  the left, from there on; the row sum of squares reads the sum over k of h(r, k) · h(r, k).  Putting these readings
  together entry by entry gives exactly the specification's affine image, per-edge map and row normalisation.
-/
import proofs.«408484_j72894184947742_1_alg».proof.Proof.Gen.ReferenceIdeal.Read
import proofs.«408484_j72894184947742_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefStages

open Cert.ReferenceIdeal Cert.ReferenceIdeal.Gen Idealize.ShloMosaic Idealize.ShloMosaic.TcCoe Idealize.ShloMosaic.ValueIdx Idealize.SL.Sem

/-! ## The node projection -/

/-- Entry (r, q) of the 20000 × 256 by 256 × 128 product: the sum over k of x(r, k) · w(k, q). -/
theorem nodeDot_ix2 (x : FVec Ideal S20000x256 .f32) (w : FVec Ideal S256x128 .f32) (r : Fin 20000) (q : Fin 128) :
    Host.dotGeneral dot_S20000x256_S256x128_S20000x128_1_0_0_1_n_n none x w (ix2 r q)
      = ∑ k : Fin 256, x (ix2 r k) * w (ix2 k q) := by
  simp only [Host.dotGeneral]
  rw [Ideal.dotGeneral_apply,
    ← Equiv.sum_comp (contrEquiv1 dot_S20000x256_S256x128_S20000x128_1_0_0_1_n_n 256 rfl rfl).symm]
  refine Finset.sum_congr rfl fun k _ => ?_
  have hk := contrEquiv1_symm_val dot_S20000x256_S256x128_S20000x128_1_0_0_1_n_n 256 rfl rfl k
  have el : dot_S20000x256_S256x128_S20000x128_1_0_0_1_n_n.lhsIdx (ix2 r q)
      ((contrEquiv1 dot_S20000x256_S256x128_S20000x128_1_0_0_1_n_n 256 rfl rfl).symm k) = ix2 r k :=
    funext fun a => Fin.ext (by
      match a with
      | ⟨0, _⟩ => exact Read.lhs_main_v0_0 _ _
      | ⟨1, _⟩ => exact (Read.lhs_main_v0_1 _ _).trans hk)
  have er : dot_S20000x256_S256x128_S20000x128_1_0_0_1_n_n.rhsIdx (ix2 r q)
      ((contrEquiv1 dot_S20000x256_S256x128_S20000x128_1_0_0_1_n_n 256 rfl rfl).symm k) = ix2 k q :=
    funext fun a => Fin.ext (by
      match a with
      | ⟨0, _⟩ => exact (Read.rhs_main_v0_0 _ _).trans hk
      | ⟨1, _⟩ => exact Read.rhs_main_v0_1 _ _)
  rw [el, er]

/-- A bias row repeated down 20000 rows reads, at (r, q), the row's entry q. -/
theorem nodeBias_ix2 (b : FVec Ideal S1x128 .f32) (r : Fin 20000) (q : Fin 128) :
    broadcastInDim S20000x128 ![0, 1] bcast_S1x128_S20000x128_0_1 b (ix2 r q) = b (ix2 (0 : Fin 1) q) :=
  broadcastInDim_apply _ bcast_S1x128_S20000x128_0_1 b (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])

/-- The matrix product with the bias row broadcast down the rows is the affine image. -/
theorem nodeProj_eq (x : FVec Ideal S20000x256 .f32) (w : FVec Ideal S256x128 .f32) (b : FVec Ideal S1x128 .f32) :
    addf (Host.dotGeneral dot_S20000x256_S256x128_S20000x128_1_0_0_1_n_n none x w)
        (broadcastInDim S20000x128 ![0, 1] bcast_S1x128_S20000x128_0_1 b)
      = Cert.Spec.nodeProj x w b := by
  funext i
  obtain ⟨r, q, rfl⟩ : ∃ (r : Fin 20000) (q : Fin 128), i = ix2 r q := ⟨i 0, i 1, eq_ix2 i⟩
  rw [Cert.Spec.nodeProj_ix2, addf_apply, nodeDot_ix2, nodeBias_ix2]
  rfl

/-! ## The per-edge map -/

/-- Entry (r, q) of the 640000 × 64 by 64 × 128 product: the sum over k of x(r, k) · w(k, q). -/
theorem distDot_ix2 (x : FVec Ideal S640000x64 .f32) (w : FVec Ideal S64x128 .f32) (r : Fin 640000) (q : Fin 128) :
    Host.dotGeneral dot_S640000x64_S64x128_S640000x128_1_0_0_1_n_n none x w (ix2 r q)
      = ∑ k : Fin 64, x (ix2 r k) * w (ix2 k q) := by
  simp only [Host.dotGeneral]
  rw [Ideal.dotGeneral_apply,
    ← Equiv.sum_comp (contrEquiv1 dot_S640000x64_S64x128_S640000x128_1_0_0_1_n_n 64 rfl rfl).symm]
  refine Finset.sum_congr rfl fun k _ => ?_
  have hk := contrEquiv1_symm_val dot_S640000x64_S64x128_S640000x128_1_0_0_1_n_n 64 rfl rfl k
  have el : dot_S640000x64_S64x128_S640000x128_1_0_0_1_n_n.lhsIdx (ix2 r q)
      ((contrEquiv1 dot_S640000x64_S64x128_S640000x128_1_0_0_1_n_n 64 rfl rfl).symm k) = ix2 r k :=
    funext fun a => Fin.ext (by
      match a with
      | ⟨0, _⟩ => exact Read.lhs_main_v11_0 _ _
      | ⟨1, _⟩ => exact (Read.lhs_main_v11_1 _ _).trans hk)
  have er : dot_S640000x64_S64x128_S640000x128_1_0_0_1_n_n.rhsIdx (ix2 r q)
      ((contrEquiv1 dot_S640000x64_S64x128_S640000x128_1_0_0_1_n_n 64 rfl rfl).symm k) = ix2 k q :=
    funext fun a => Fin.ext (by
      match a with
      | ⟨0, _⟩ => exact (Read.rhs_main_v11_0 _ _).trans hk
      | ⟨1, _⟩ => exact Read.rhs_main_v11_1 _ _)
  rw [el, er]

/-- Entry (r, q) of the 640000 × 128 by 128 × 128 product: the sum over k of x(r, k) · w(k, q). -/
theorem edgeDot_ix2 (x : FVec Ideal S640000x128 .f32) (w : FVec Ideal S128x128 .f32) (r : Fin 640000) (q : Fin 128) :
    Host.dotGeneral dot_S640000x128_S128x128_S640000x128_1_0_0_1_n_n none x w (ix2 r q)
      = ∑ k : Fin 128, x (ix2 r k) * w (ix2 k q) := by
  simp only [Host.dotGeneral]
  rw [Ideal.dotGeneral_apply,
    ← Equiv.sum_comp (contrEquiv1 dot_S640000x128_S128x128_S640000x128_1_0_0_1_n_n 128 rfl rfl).symm]
  refine Finset.sum_congr rfl fun k _ => ?_
  have hk := contrEquiv1_symm_val dot_S640000x128_S128x128_S640000x128_1_0_0_1_n_n 128 rfl rfl k
  have el : dot_S640000x128_S128x128_S640000x128_1_0_0_1_n_n.lhsIdx (ix2 r q)
      ((contrEquiv1 dot_S640000x128_S128x128_S640000x128_1_0_0_1_n_n 128 rfl rfl).symm k) = ix2 r k :=
    funext fun a => Fin.ext (by
      match a with
      | ⟨0, _⟩ => exact Read.lhs_main_v16_0 _ _
      | ⟨1, _⟩ => exact (Read.lhs_main_v16_1 _ _).trans hk)
  have er : dot_S640000x128_S128x128_S640000x128_1_0_0_1_n_n.rhsIdx (ix2 r q)
      ((contrEquiv1 dot_S640000x128_S128x128_S640000x128_1_0_0_1_n_n 128 rfl rfl).symm k) = ix2 k q :=
    funext fun a => Fin.ext (by
      match a with
      | ⟨0, _⟩ => exact (Read.rhs_main_v16_0 _ _).trans hk
      | ⟨1, _⟩ => exact Read.rhs_main_v16_1 _ _)
  rw [el, er]

/-- Entry (r, q) of the 640000 × 256 by 256 × 256 product: the sum over k of x(r, k) · w(k, q). -/
theorem pairDot_ix2 (x : FVec Ideal S640000x256 .f32) (w : FVec Ideal S256x256 .f32) (r : Fin 640000) (q : Fin 256) :
    Host.dotGeneral dot_S640000x256_S256x256_S640000x256_1_0_0_1_n_n none x w (ix2 r q)
      = ∑ k : Fin 256, x (ix2 r k) * w (ix2 k q) := by
  simp only [Host.dotGeneral]
  rw [Ideal.dotGeneral_apply,
    ← Equiv.sum_comp (contrEquiv1 dot_S640000x256_S256x256_S640000x256_1_0_0_1_n_n 256 rfl rfl).symm]
  refine Finset.sum_congr rfl fun k _ => ?_
  have hk := contrEquiv1_symm_val dot_S640000x256_S256x256_S640000x256_1_0_0_1_n_n 256 rfl rfl k
  have el : dot_S640000x256_S256x256_S640000x256_1_0_0_1_n_n.lhsIdx (ix2 r q)
      ((contrEquiv1 dot_S640000x256_S256x256_S640000x256_1_0_0_1_n_n 256 rfl rfl).symm k) = ix2 r k :=
    funext fun a => Fin.ext (by
      match a with
      | ⟨0, _⟩ => exact Read.lhs_main_v21_0 _ _
      | ⟨1, _⟩ => exact (Read.lhs_main_v21_1 _ _).trans hk)
  have er : dot_S640000x256_S256x256_S640000x256_1_0_0_1_n_n.rhsIdx (ix2 r q)
      ((contrEquiv1 dot_S640000x256_S256x256_S640000x256_1_0_0_1_n_n 256 rfl rfl).symm k) = ix2 k q :=
    funext fun a => Fin.ext (by
      match a with
      | ⟨0, _⟩ => exact (Read.rhs_main_v21_0 _ _).trans hk
      | ⟨1, _⟩ => exact Read.rhs_main_v21_1 _ _)
  rw [el, er]

/-- A bias row repeated down 640000 rows reads, at (r, q), the row's entry q. -/
theorem edgeBias_ix2 (b : FVec Ideal S1x128 .f32) (r : Fin 640000) (q : Fin 128) :
    broadcastInDim S640000x128 ![0, 1] bcast_S1x128_S640000x128_0_1 b (ix2 r q) = b (ix2 (0 : Fin 1) q) :=
  broadcastInDim_apply _ bcast_S1x128_S640000x128_0_1 b (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])

/-- Two 640000 × 128 matrices side by side, read below column 128: the left one at the same entry. -/
theorem beside_ix2_left (A B : FVec Ideal S640000x128 .f32) (r : Fin 640000) (k : Fin 256) (hk : k.val < 128) :
    concatenate S640000x256 1 [⟨S640000x128, A⟩, ⟨S640000x128, B⟩]
        concatenates_S640000x128_S640000x128_S640000x256_d1 (ix2 r k)
      = A (ix2 r ⟨k.val, hk⟩) :=
  concatenate_pair_apply_left 1 A B concatenates_S640000x128_S640000x128_S640000x256_d1 (ix2 r k) rfl
    (ix2 r ⟨k.val, hk⟩) (fun b => match b with
      | ⟨0, _⟩ => rfl
      | ⟨1, _⟩ => rfl)

/-- Two 640000 × 128 matrices side by side, read from column 128 on: the right one, 128 columns to the left. -/
theorem beside_ix2_right (A B : FVec Ideal S640000x128 .f32) (r : Fin 640000) (k : Fin 256) (hk : ¬ k.val < 128) :
    concatenate S640000x256 1 [⟨S640000x128, A⟩, ⟨S640000x128, B⟩]
        concatenates_S640000x128_S640000x128_S640000x256_d1 (ix2 r k)
      = B (ix2 r ⟨k.val - 128, by have := k.isLt; omega⟩) :=
  concatenate_pair_apply_right 1 A B concatenates_S640000x128_S640000x128_S640000x256_d1 (ix2 r k) rfl rfl
    (ix2 r ⟨k.val - 128, by have := k.isLt; omega⟩) (fun b hb => match b, hb with
      | ⟨0, _⟩, _ => rfl
      | ⟨1, _⟩, hb => absurd rfl hb)
    (by show (k.val - 128) + 128 = k.val; omega)

/-- tanh of a whole array reads, at an index, tanh of the entry. -/
theorem hostTanh_apply {s : Shape} {φ : FTy} (x : FVec Ideal s φ) (i : s.Idx) : Host.tanh x i = Ideal.tanh (x i) := rfl

/-- Entry (r, k) of the two per-edge blocks laid side by side is the specification's paired entry. -/
theorem beside_eq_pairAt (sf e : FVec Ideal S640000x128 .f32) (d : FVec Ideal S640000x64 .f32)
    (we : FVec Ideal S128x128 .f32) (be : FVec Ideal S1x128 .f32) (wd : FVec Ideal S64x128 .f32)
    (bd : FVec Ideal S1x128 .f32) (r : Fin 640000) (k : Fin 256) :
    concatenate S640000x256 1
        [⟨S640000x128, mulf sf (addf (Host.dotGeneral dot_S640000x64_S64x128_S640000x128_1_0_0_1_n_n none d wd)
            (broadcastInDim S640000x128 ![0, 1] bcast_S1x128_S640000x128_0_1 bd))⟩,
         ⟨S640000x128, addf (Host.dotGeneral dot_S640000x128_S128x128_S640000x128_1_0_0_1_n_n none e we)
            (broadcastInDim S640000x128 ![0, 1] bcast_S1x128_S640000x128_0_1 be)⟩]
        concatenates_S640000x128_S640000x128_S640000x256_d1 (ix2 r k)
      = Cert.Spec.pairAt sf e d we be wd bd r k := by
  unfold Cert.Spec.pairAt
  split
  · next hk =>
    rw [beside_ix2_left _ _ r k hk, mulf_apply, addf_apply, distDot_ix2, edgeBias_ix2]
    rfl
  · next hk =>
    rw [beside_ix2_right _ _ r k hk, addf_apply, edgeDot_ix2, edgeBias_ix2]
    rfl

/-- The gathered feature times the projected distance, beside the projected edge feature, into the combining matrix,
    then tanh: the per-edge message map. -/
theorem edgeMlp_eq (sf e : FVec Ideal S640000x128 .f32) (d : FVec Ideal S640000x64 .f32) (we : FVec Ideal S128x128 .f32)
    (be : FVec Ideal S1x128 .f32) (wd : FVec Ideal S64x128 .f32) (bd : FVec Ideal S1x128 .f32) (wc : FVec Ideal S256x256 .f32) :
    Host.tanh (Host.dotGeneral dot_S640000x256_S256x256_S640000x256_1_0_0_1_n_n none
        (concatenate S640000x256 1
          [⟨S640000x128, mulf sf (addf (Host.dotGeneral dot_S640000x64_S64x128_S640000x128_1_0_0_1_n_n none d wd)
              (broadcastInDim S640000x128 ![0, 1] bcast_S1x128_S640000x128_0_1 bd))⟩,
           ⟨S640000x128, addf (Host.dotGeneral dot_S640000x128_S128x128_S640000x128_1_0_0_1_n_n none e we)
              (broadcastInDim S640000x128 ![0, 1] bcast_S1x128_S640000x128_0_1 be)⟩]
          concatenates_S640000x128_S640000x128_S640000x256_d1) wc)
      = Cert.Spec.edgeMlp sf e d we be wd bd wc := by
  funext i
  obtain ⟨r, q, rfl⟩ : ∃ (r : Fin 640000) (q : Fin 256), i = ix2 r q := ⟨i 0, i 1, eq_ix2 i⟩
  rw [Cert.Spec.edgeMlp_ix2, hostTanh_apply, pairDot_ix2]
  unfold Cert.Spec.edgeAt
  refine congrArg Ideal.tanh (Finset.sum_congr rfl fun k _ => ?_)
  rw [beside_eq_pairAt]

/-! ## The row normalisation -/

/-- The sum along the columns of a 20000 × 256 array, started from zero, reads at row r the sum over k of the
    entries (r, k). -/
theorem rowSum_ix1 (g : FVec Ideal S20000x256 .f32) (r : Fin 20000) :
    Host.reduceAdd g (constant S_ .f32 0x00000000#32) reducesTo_S20000x256_S20000_d1 h_S_ (ix1 r)
      = ∑ k : Fin 256, g (ix2 r k) := by
  simp only [Host.reduceAdd, Ideal.hostReduceAdd_def]
  rw [Ideal.hostReduceAdd_single reducesTo_S20000x256_S20000_d1 (by decide), constant_apply, Ideal.ofBits_zero_f32,
    zero_add]
  refine Finset.sum_congr rfl fun k _ => ?_
  exact congrArg g (funext fun a => Fin.ext (by match a with | ⟨0, _⟩ => rfl | ⟨1, _⟩ => rfl))

/-- A vector of 20000 entries stood up as a 20000 × 1 column reads, at (r, 0), the vector's entry r. -/
theorem column_ix2 (v : FVec Ideal S20000 .f32) (r : Fin 20000) (z : Fin 1) :
    broadcastInDim S20000x1 ![0] bcast_S20000_S20000x1_0 v (ix2 r z) = v (ix1 r) :=
  broadcastInDim_apply _ bcast_S20000_S20000x1_0 v (ix2 r z) (ix1 r) (fun a => match a with
    | ⟨0, _⟩ => by show r.val = if (20000 : Nat) = 1 then 0 else r.val; rw [if_neg (by decide)])

/-- A 20000 × 1 column repeated across 256 columns reads, at (r, q), the column's entry r. -/
theorem acrossColumns_ix2 (c : FVec Ideal S20000x1 .f32) (r : Fin 20000) (q : Fin 256) :
    broadcastInDim S20000x256 ![0, 1] bcast_S20000x1_S20000x256_0_1 c (ix2 r q) = c (ix2 r (0 : Fin 1)) :=
  broadcastInDim_apply _ bcast_S20000x1_S20000x256_0_1 c (ix2 r q) (ix2 r (0 : Fin 1)) (fun a => match a with
    | ⟨0, _⟩ => by show r.val = if (20000 : Nat) = 1 then 0 else r.val; rw [if_neg (by decide)]
    | ⟨1, _⟩ => by show 0 = if (1 : Nat) = 1 then 0 else q.val; rw [if_pos rfl])

/-- The square root of a whole array reads, at an index, the square root of the entry. -/
theorem hostSqrt_apply {s : Shape} {φ : FTy} (x : FVec Ideal s φ) (i : s.Idx) : Host.sqrt x i = Ideal.sqrt (x i) := rfl

/-- The quotient of two whole arrays reads, at an index, the quotient of the entries. -/
theorem hostDivf_apply {s : Shape} {φ : FTy} (x y : FVec Ideal s φ) (i : s.Idx) :
    Host.divf x y i = Ideal.div (x i) (y i) := rfl

/-- Every row divided by the square root of the sum of its squares: the row-normalised array. -/
theorem unitRows_eq (h : FVec Ideal S20000x256 .f32) :
    Host.divf h (broadcastInDim S20000x256 ![0, 1] bcast_S20000x1_S20000x256_0_1
        (Host.sqrt (broadcastInDim S20000x1 ![0] bcast_S20000_S20000x1_0
          (Host.reduceAdd (mulf h h) (constant S_ .f32 0x00000000#32) reducesTo_S20000x256_S20000_d1 h_S_))))
      = Cert.Spec.unitRows h := by
  funext i
  obtain ⟨r, q, rfl⟩ : ∃ (r : Fin 20000) (q : Fin 256), i = ix2 r q := ⟨i 0, i 1, eq_ix2 i⟩
  rw [Cert.Spec.unitRows_ix2, hostDivf_apply, acrossColumns_ix2, hostSqrt_apply, column_ix2, rowSum_ix1]
  rfl

end Cert.ReferenceIdeal.RefStages

end
-- ==== Proof.Bridge.lean ====
/-
  The kernel program's result and the reference's result are one function of the arguments. The reference's term is
  the same composition of stages — node projection, gather at the wrapped source indices, per-edge map, scatter-add
  into the destination rows, row normalisation — once each dense stage is read as the specification's function; the
  only difference in spelling is how a bias vector is laid out as one row (a broadcast along a new leading axis
  there, a reshape here), and both read the vector's entry q at (0, q).
-/
import proofs.«408484_j72894184947742_1_alg».proof.Proof.KernelValue
import proofs.«408484_j72894184947742_1_alg».proof.Proof.RefStages
import proofs.«408484_j72894184947742_1_alg».proof.Proof.Gen.ReferenceIdeal.Run
import Idealize.ShloMosaic.Lib.Pipeline.Value
import Idealize.ShloMosaic.Lib.ValueIdx

set_option maxRecDepth 16384

noncomputable section

namespace Cert.Bridge

open Idealize.ShloMosaic Idealize.ShloMosaic.TcCoe Idealize.ShloMosaic.ValueIdx Idealize.SL.Sem

/-- A vector of 128 entries as one row: broadcast along a new leading axis, or reshaped — the same row. -/
theorem biasRow_eq {α : Type} (b : (⟨1, ![128]⟩ : Shape).Idx → α)
    (h : (⟨1, ![128]⟩ : Shape).BroadcastsInDim ⟨2, ![1, 128]⟩ ![1]) (h' : (⟨1, ![128]⟩ : Shape).ShapeCasts ⟨2, ![1, 128]⟩) :
    broadcastInDim ⟨2, ![1, 128]⟩ ![1] h b = shapeCast ⟨2, ![1, 128]⟩ b h' := by
  funext i
  obtain ⟨u, q, rfl⟩ : ∃ (u : Fin 1) (q : Fin 128), i = ix2 u q := ⟨i 0, i 1, eq_ix2 i⟩
  rw [broadcastInDim_apply ![1] h b (ix2 u q) (ix1 q) (fun a => by
    match a with
    | ⟨0, _⟩ => show q.val = if (128 : ℕ) = 1 then 0 else q.val; rw [if_neg (by decide)])]
  refine (shapeCast_apply b h' (ix2 u q) (ix1 q) ?_).symm
  have hu : u.val = 0 := by omega
  rw [Shape.rowMajor_val_two, Shape.rowMajor_val_one]
  show q.val = u.val * 128 + q.val
  omega

open Cert.ReferenceIdeal Cert.ReferenceIdeal.Gen in
/-- The reference's result term with its three dense stages read as the specification's functions. -/
theorem reference_result (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v28 (F := Ideal) m' c
      = Cert.Spec.unitRows
          (Host.scatterAdd (F := Ideal) scatter_S20000x256_S640000x1_S640000x256_1_0_0_1
            (broadcastInDim S20000x256 ![] bcast_S_S20000x256 (constant (F := Ideal) S_ .f32 0x00000000#32))
            (broadcastInDim S640000x1 ![0] bcast_S640000_S640000x1_0 (m' ((c.tc : Thread nD τ).loc main_arg4)))
            (Cert.Spec.edgeMlp
              (Host.gather gather_S20000x128_S640000x1_S640000x128_1_0_n_n_0_1_1128
                (Cert.Spec.nodeProj (m' ((c.tc : Thread nD τ).loc main_arg0)) (m' ((c.tc : Thread nD τ).loc main_arg5))
                  (broadcastInDim S1x128 ![1] bcast_S128_S1x128_1 (m' ((c.tc : Thread nD τ).loc main_arg6))))
                (broadcastInDim S640000x1 ![0] bcast_S640000_S640000x1_0
                  (select (cmpi .slt (m' ((c.tc : Thread nD τ).loc main_arg3)) (broadcastInDim S640000 ![] bcast_S_S640000 (constantI S_ 32 0#32)))
                    (addi (m' ((c.tc : Thread nD τ).loc main_arg3)) (broadcastInDim S640000 ![] bcast_S_S640000 (constantI S_ 32 20000#32)))
                    (m' ((c.tc : Thread nD τ).loc main_arg3)))))
              (m' ((c.tc : Thread nD τ).loc main_arg1)) (m' ((c.tc : Thread nD τ).loc main_arg2))
              (m' ((c.tc : Thread nD τ).loc main_arg7))
              (broadcastInDim S1x128 ![1] bcast_S128_S1x128_1 (m' ((c.tc : Thread nD τ).loc main_arg8)))
              (m' ((c.tc : Thread nD τ).loc main_arg9))
              (broadcastInDim S1x128 ![1] bcast_S128_S1x128_1 (m' ((c.tc : Thread nD τ).loc main_arg10)))
              (m' ((c.tc : Thread nD τ).loc main_arg11)))) := by
  unfold Cert.ReferenceIdeal.Value.res_main_v28
  rw [Cert.ReferenceIdeal.RefStages.nodeProj_eq, Cert.ReferenceIdeal.RefStages.edgeMlp_eq,
    Cert.ReferenceIdeal.RefStages.unitRows_eq]

/-- From memories that agree on the arguments, the reference's result term is the kernel program's result. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (c : Dev Cert.ReferenceIdeal.nD) :
    Cert.ReferenceIdeal.Value.res_main_v28 (F := Ideal) m' c = Cert.KernelIdeal.Whole.result m c := by
  rw [reference_result]
  obtain ⟨e0, e1, e2, e3, e4, e5, e6, e7, e8, e9, e10, e11⟩ := hagree c
  rw [e0, e1, e2, e3, e4, e5, e6, e7, e8, e9, e10, e11]
  rw [biasRow_eq _ _ Cert.KernelIdeal.Gen.shapeCasts_S128_S1x128, biasRow_eq _ _ Cert.KernelIdeal.Gen.shapeCasts_S128_S1x128,
    biasRow_eq _ _ Cert.KernelIdeal.Gen.shapeCasts_S128_S1x128]
  unfold Cert.KernelIdeal.Whole.result Cert.KernelIdeal.Whole.sums Cert.KernelIdeal.Whole.messages
    Cert.KernelIdeal.Whole.srcFeat Cert.KernelIdeal.Whole.nodeProjArr Cert.KernelIdeal.HostValues.wrapIdx
  rfl

end Cert.Bridge

end
-- ==== Proof.lean ====
/-
  One message-passing layer of a graph network, in three launches with a gather and a scatter-add between them,
  against the same layer written with whole-array operations.

  Over the extended reals both programs compute, for node features x, edge features e, distances d, source and
  destination indices:
    p   = x · W_node + b_node                                   (one row per node)
    m   = tanh([ p[src] ∘ (d · W_dist + b_dist) , e · W_edge + b_edge ] · W_comb)   (one row per edge)
    h   = the sum, for every node, of the rows of m whose destination it is
    out = every row of h divided by its Euclidean norm.
  The kernel tiles the three dense stages over blocks of rows; a block of rows of each stage depends on the same
  rows of its inputs only, so the blocks fit together to the whole-array function. Rounding to a narrower format on
  the way into a product is the identity over the extended reals, and no law beyond reading each operation at an
  index is used: both sides spell the same sums in the same order.
  The kernel's gather replaces a row whose index is out of range by a fill the reference does not have; under the
  precondition every source index lies in -20000 … 19999, where, a negative index counting from the end, both
  gathers read the same row.
  The frames of the two kernel programs are the generated ones; the reference's frame is its run with the result
  dropped; the idealization rewrote nothing, so nothing is to be preserved.
-/
import proofs.«408484_j72894184947742_1_alg».proof.Defs
import proofs.«408484_j72894184947742_1_alg».proof.Proof.Gen.Kernel
import proofs.«408484_j72894184947742_1_alg».proof.Proof.Gen.Kernel.Skeleton
import proofs.«408484_j72894184947742_1_alg».proof.Proof.Gen.Kernel.Launch
import proofs.«408484_j72894184947742_1_alg».proof.Proof.Gen.Kernel.Points
import proofs.«408484_j72894184947742_1_alg».proof.Proof.Gen.Kernel.Frame
import proofs.«408484_j72894184947742_1_alg».proof.Proof.Gen.KernelIdeal
import proofs.«408484_j72894184947742_1_alg».proof.Proof.Gen.KernelIdeal.Skeleton
import proofs.«408484_j72894184947742_1_alg».proof.Proof.Gen.KernelIdeal.Launch
import proofs.«408484_j72894184947742_1_alg».proof.Proof.Gen.KernelIdeal.Points
import proofs.«408484_j72894184947742_1_alg».proof.Proof.Gen.KernelIdeal.Frame
import proofs.«408484_j72894184947742_1_alg».proof.Proof.Gen.ReferenceIdeal
import proofs.«408484_j72894184947742_1_alg».proof.Proof.Gen.ReferenceIdeal.Run
import proofs.«408484_j72894184947742_1_alg».proof.Proof.Gen.ReferenceIdeal.Read
import proofs.«408484_j72894184947742_1_alg».proof.Proof.Gen.Pre_finite_inputs
import proofs.«408484_j72894184947742_1_alg».proof.Proof.PreRange
import proofs.«408484_j72894184947742_1_alg».proof.Proof.KernelValue
import proofs.«408484_j72894184947742_1_alg».proof.Proof.Bridge
import Idealize.ShloMosaic.Adequacy
import Idealize.ShloMosaic.Init

noncomputable section

namespace Cert.Proof

open Idealize.ShloMosaic Idealize.SL.Sem

/-- The kernel program as printed runs and keeps its arguments. -/
theorem frame_kernel [hPre : Cert.Pre_finite_inputs.Facts] : Cert.frame_Kernel (hKernel := Cert.Kernel.Gen.facts) :=
  fun m ρ _ => Cert.Kernel.Gen.frame m ρ

/-- The idealized kernel program runs and keeps its arguments. -/
theorem frame_kernelIdeal [hPre : Cert.Pre_finite_inputs.Facts] :
    Cert.frame_KernelIdeal (hKernelIdeal := Cert.KernelIdeal.Gen.facts) :=
  fun m ρ _ => Cert.KernelIdeal.Gen.frame m ρ

/-- The reference runs and keeps its arguments: its run with the result dropped. -/
theorem frame_referenceIdeal [hPre : Cert.Pre_finite_inputs.Facts] :
    Cert.frame_ReferenceIdeal (hReferenceIdeal := Cert.ReferenceIdeal.Gen.facts) :=
  fun m ρ _ => (θ_run Cert.ReferenceIdeal.defs _ _).mono (fun _ h c => (h c).2)
    (Cert.ReferenceIdeal.Value.run (F := Ideal) m ρ)

/-- From memories agreeing on the arguments, with the source indices in range, both programs end at the same
    result: the kernel program at its result function of the launch memory, the reference at its own term, which is
    that function. -/
theorem algebraic [hPre : Cert.Pre_finite_inputs.Facts] :
    Cert.algebraic_KernelIdeal_ReferenceIdeal (hKernelIdeal := Cert.KernelIdeal.Gen.facts)
      (hReferenceIdeal := Cert.ReferenceIdeal.Gen.facts) := by
  intro m ρ m' ρ' hpre hagree
  have hsrc : Cert.KernelIdeal.Whole.SrcBounds m := fun c e =>
    Cert.Pre_finite_inputs.Range.src_bounds _ _ _ _ _ _ _ _ _ _ _ _ (hpre c) e
  refine ⟨fun c => Cert.KernelIdeal.Whole.result m c, Cert.KernelIdeal.Whole.run m ρ hsrc, ?_⟩
  refine (θ_run Cert.ReferenceIdeal.defs _ _).mono (fun _ h c => ⟨(h c).1.trans ?_, (h c).2⟩)
    (Cert.ReferenceIdeal.Value.run (F := Ideal) m' ρ')
  exact Cert.Bridge.result_eq m m' hagree c

theorem claim : Cert.Claim :=
  ⟨Cert.Kernel.Gen.facts, Cert.KernelIdeal.Gen.facts, Cert.ReferenceIdeal.Gen.facts, Cert.Pre_finite_inputs.Gen.facts,
    frame_kernel (hPre := Cert.Pre_finite_inputs.Gen.facts), frame_kernelIdeal (hPre := Cert.Pre_finite_inputs.Gen.facts),
    frame_referenceIdeal (hPre := Cert.Pre_finite_inputs.Gen.facts), trivial,
    algebraic (hPre := Cert.Pre_finite_inputs.Gen.facts)⟩

end Cert.Proof

end
